-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32768x8 : Shape := ⟨3, ![64, 32768, 8]⟩
abbrev S_ : Shape := ⟨0, ![]⟩

class Facts : Prop where
  bcast_S_S64x32768x8 : S_.BroadcastsInDim S64x32768x8 (![] : Fin 0 → Fin S64x32768x8.rank)
  reducesTo_S64x32768x8_S_d0_1_2 : S64x32768x8.ReducesTo [0, 1, 2] S_
  h_S_ : 0 < S_.numel

variable [Facts]

def fn {F : FTy → Type} [FloatOps F] (main_arg0 : FVec F S64x32768x8 .f32) (main_arg1 : IVec S64x32768x8 32) : IVec S_ 1 :=
  let main_v0 : FVec F S64x32768x8 .f32 := Host.absf main_arg0
  let main_cst : FVec F S_ .f32 := constant S_ .f32 0x7F800000#32
  let main_v1 : FVec F S64x32768x8 .f32 := broadcastInDim S64x32768x8 ![] bcast_S_S64x32768x8 main_cst
  let main_v2 : IVec S64x32768x8 1 := cmpf .olt main_v0 main_v1
  let main_c : IVec S_ 1 := constantI S_ 1 1#1
  let main_v3 : IVec S_ 1 := (fun x v => Host.reduce IntOp.andi x v reducesTo_S64x32768x8_S_d0_1_2 h_S_) main_v2 main_c
  main_v3
-- ==== Kernel.lean ====
abbrev S64x32768x8 : Shape := ⟨3, ![64, 32768, 8]⟩
abbrev S16777216 : Shape := ⟨1, ![16777216]⟩
abbrev S131072x128 : Shape := ⟨2, ![131072, 128]⟩
abbrev S2x64x1 : Shape := ⟨3, ![2, 64, 1]⟩
abbrev S4096x128 : Shape := ⟨2, ![4096, 128]⟩
abbrev S1x64x1 : Shape := ⟨3, ![1, 64, 1]⟩
abbrev S64x128 : Shape := ⟨2, ![64, 128]⟩
abbrev S512x128 : Shape := ⟨2, ![512, 128]⟩
abbrev S128 : Shape := ⟨1, ![128]⟩
abbrev S1x128 : Shape := ⟨2, ![1, 128]⟩
abbrev S64 : Shape := ⟨1, ![64]⟩
abbrev S64x1 : Shape := ⟨2, ![64, 1]⟩
abbrev S2x64 : Shape := ⟨2, ![2, 64]⟩
abbrev S_ : Shape := ⟨0, ![]⟩

abbrev nBuf : Space → Nat
  | .hbm => 25
  | .vmem => 10
  | .smem => 0
  | _ => 0

abbrev bufTy : (tb : Table) → Fin (tcTables nBuf tb) → BufTy
  | .hbm, ⟨0, _⟩ => ⟨S64x32768x8, .f32⟩
  | .hbm, ⟨1, _⟩ => ⟨S64x32768x8, .i32⟩
  | .hbm, ⟨2, _⟩ => ⟨S16777216, .f32⟩
  | .hbm, ⟨3, _⟩ => ⟨S16777216, .i32⟩
  | .hbm, ⟨4, _⟩ => ⟨S131072x128, .f32⟩
  | .hbm, ⟨5, _⟩ => ⟨S131072x128, .i32⟩
  | .hbm, ⟨6, _⟩ => ⟨S2x64x1, .f32⟩
  | .hbm, ⟨7, _⟩ => ⟨S2x64x1, .f32⟩
  | .hbm, ⟨8, _⟩ => ⟨S2x64, .f32⟩
  | .hbm, ⟨9, _⟩ => ⟨S_, .f32⟩
  | .hbm, ⟨10, _⟩ => ⟨S64, .f32⟩
  | .hbm, ⟨11, _⟩ => ⟨S2x64, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x64x1, .f32⟩
  | .local _ .vmem, ⟨5, _⟩ => ⟨S1x64x1, .f32⟩
  | .local _ .vmem, ⟨6, _⟩ => ⟨S1x64x1, .f32⟩
  | .local _ .vmem, ⟨7, _⟩ => ⟨S1x64x1, .f32⟩
  | .local _ .vmem, ⟨8, _⟩ => ⟨S64x128, .f32⟩
  | .local _ .vmem, ⟨9, _⟩ => ⟨S64x128, .f32⟩
  | _, _ => ⟨S64x32768x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v7 : BitVec 32 := Scalar.muli arg8 c1_i32_4
  let v8 : BitVec 32 := Scalar.addi c0_i32_5 v7
  let c512_i32 : BitVec 32 := 512#32
  let v9 : BitVec 32 := Scalar.muli v8 c512_i32
  v9
def k0_off1 (k0_t1 : Fin k0_t1_loop.trips) : Fin 2 → Nat :=
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v7 : BitVec 32 := Scalar.muli arg8 c1_i32_4
  let v8 : BitVec 32 := Scalar.addi c0_i32_5 v7
  let c512_i32 : BitVec 32 := 512#32
  let v9 : BitVec 32 := Scalar.muli v8 c512_i32
  let v10 : BitVec 32 := v9
  let v11 : Index := Scalar.indexCast v10
  let c0 : Index := 0#32
  ![v11.toNat, 0]
def k0_cond2 (i : grid0.Coords) : BitVec 1 :=
  let arg1 : BitVec 32 := BitVec.ofNat 32 (i 1).val
  let c15_i32 : BitVec 32 := 15#32
  let v4 : BitVec 1 := Scalar.cmpi .eq arg1 c15_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x32768x8_S16777216 : S64x32768x8.ShapeCasts S16777216
  shapeCasts_S16777216_S131072x128 : S16777216.ShapeCasts S131072x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  h_S512x128 : 0 < S512x128.numel
  shapeCasts_S512x128_S512x128 : S512x128.ShapeCasts S512x128
  natLt_1_32 : 1 < 32
  reduces_S512x128_S128 : S512x128.Reduces [0] S128
  shapeCasts_S128_S1x128 : S128.ShapeCasts S1x128
  inb_S64x128_S1x128_0_0 : ∀ a, (![0, 0] : Fin 2 → Nat) a + S1x128.size a ≤ S64x128.size a
  h_S1x128 : 0 < S1x128.numel
  shapeCasts_S1x128_S1x128 : S1x128.ShapeCasts S1x128
  inb_S64x128_S1x128_1_0 : ∀ a, (![1, 0] : Fin 2 → Nat) a + S1x128.size a ≤ S64x128.size a
  inb_S64x128_S1x128_2_0 : ∀ a, (![2, 0] : Fin 2 → Nat) a + S1x128.size a ≤ S64x128.size a
  inb_S64x128_S1x128_3_0 : ∀ a, (![3, 0] : Fin 2 → Nat) a + S1x128.size a ≤ S64x128.size a
  inb_S64x128_S1x128_4_0 : ∀ a, (![4, 0] : Fin 2 → Nat) a + S1x128.size a ≤ S64x128.size a
  inb_S64x128_S1x128_5_0 : ∀ a, (![5, 0] : Fin 2 → Nat) a + S1x128.size a ≤ S64x128.size a
  inb_S64x128_S1x128_6_0 : ∀ a, (![6, 0] : Fin 2 → Nat) a + S1x128.size a ≤ S64x128.size a
  inb_S64x128_S1x128_7_0 : ∀ a, (![7, 0] : Fin 2 → Nat) a + S1x128.size a ≤ S64x128.size a
  inb_S64x128_S1x128_8_0 : ∀ a, (![8, 0] : Fin 2 → Nat) a + S1x128.size a ≤ S64x128.size a
  inb_S64x128_S1x128_9_0 : ∀ a, (![9, 0] : Fin 2 → Nat) a + S1x128.size a ≤ S64x128.size a
  inb_S64x128_S1x128_10_0 : ∀ a, (![10, 0] : Fin 2 → Nat) a + S1x128.size a ≤ S64x128.size a
  inb_S64x128_S1x128_11_0 : ∀ a, (![11, 0] : Fin 2 → Nat) a + S1x128.size a ≤ S64x128.size a
  inb_S64x128_S1x128_12_0 : ∀ a, (![12, 0] : Fin 2 → Nat) a + S1x128.size a ≤ S64x128.size a
  inb_S64x128_S1x128_13_0 : ∀ a, (![13, 0] : Fin 2 → Nat) a + S1x128.size a ≤ S64x128.size a
  inb_S64x128_S1x128_14_0 : ∀ a, (![14, 0] : Fin 2 → Nat) a + S1x128.size a ≤ S64x128.size a
  inb_S64x128_S1x128_15_0 : ∀ a, (![15, 0] : Fin 2 → Nat) a + S1x128.size a ≤ S64x128.size a
  inb_S64x128_S1x128_16_0 : ∀ a, (![16, 0] : Fin 2 → Nat) a + S1x128.size a ≤ S64x128.size a
  inb_S64x128_S1x128_17_0 : ∀ a, (![17, 0] : Fin 2 → Nat) a + S1x128.size a ≤ S64x128.size a
  inb_S64x128_S1x128_18_0 : ∀ a, (![18, 0] : Fin 2 → Nat) a + S1x128.size a ≤ S64x128.size a
  inb_S64x128_S1x128_19_0 : ∀ a, (![19, 0] : Fin 2 → Nat) a + S1x128.size a ≤ S64x128.size a
  inb_S64x128_S1x128_20_0 : ∀ a, (![20, 0] : Fin 2 → Nat) a + S1x128.size a ≤ S64x128.size a
  inb_S64x128_S1x128_21_0 : ∀ a, (![21, 0] : Fin 2 → Nat) a + S1x128.size a ≤ S64x128.size a
  inb_S64x128_S1x128_22_0 : ∀ a, (![22, 0] : Fin 2 → Nat) a + S1x128.size a ≤ S64x128.size a
  inb_S64x128_S1x128_23_0 : ∀ a, (![23, 0] : Fin 2 → Nat) a + S1x128.size a ≤ S64x128.size a
  inb_S64x128_S1x128_24_0 : ∀ a, (![24, 0] : Fin 2 → Nat) a + S1x128.size a ≤ S64x128.size a
  inb_S64x128_S1x128_25_0 : ∀ a, (![25, 0] : Fin 2 → Nat) a + S1x128.size a ≤ S64x128.size a
  inb_S64x128_S1x128_26_0 : ∀ a, (![26, 0] : Fin 2 → Nat) a + S1x128.size a ≤ S64x128.size a
  inb_S64x128_S1x128_27_0 : ∀ a, (![27, 0] : Fin 2 → Nat) a + S1x128.size a ≤ S64x128.size a
  inb_S64x128_S1x128_28_0 : ∀ a, (![28, 0] : Fin 2 → Nat) a + S1x128.size a ≤ S64x128.size a
  inb_S64x128_S1x128_29_0 : ∀ a, (![29, 0] : Fin 2 → Nat) a + S1x128.size a ≤ S64x128.size a
  inb_S64x128_S1x128_30_0 : ∀ a, (![30, 0] : Fin 2 → Nat) a + S1x128.size a ≤ S64x128.size a
  inb_S64x128_S1x128_31_0 : ∀ a, (![31, 0] : Fin 2 → Nat) a + S1x128.size a ≤ S64x128.size a
  inb_S64x128_S1x128_32_0 : ∀ a, (![32, 0] : Fin 2 → Nat) a + S1x128.size a ≤ S64x128.size a
  inb_S64x128_S1x128_33_0 : ∀ a, (![33, 0] : Fin 2 → Nat) a + S1x128.size a ≤ S64x128.size a
  inb_S64x128_S1x128_34_0 : ∀ a, (![34, 0] : Fin 2 → Nat) a + S1x128.size a ≤ S64x128.size a
  inb_S64x128_S1x128_35_0 : ∀ a, (![35, 0] : Fin 2 → Nat) a + S1x128.size a ≤ S64x128.size a
  inb_S64x128_S1x128_36_0 : ∀ a, (![36, 0] : Fin 2 → Nat) a + S1x128.size a ≤ S64x128.size a
  inb_S64x128_S1x128_37_0 : ∀ a, (![37, 0] : Fin 2 → Nat) a + S1x128.size a ≤ S64x128.size a
  inb_S64x128_S1x128_38_0 : ∀ a, (![38, 0] : Fin 2 → Nat) a + S1x128.size a ≤ S64x128.size a
  inb_S64x128_S1x128_39_0 : ∀ a, (![39, 0] : Fin 2 → Nat) a + S1x128.size a ≤ S64x128.size a
  inb_S64x128_S1x128_40_0 : ∀ a, (![40, 0] : Fin 2 → Nat) a + S1x128.size a ≤ S64x128.size a
  inb_S64x128_S1x128_41_0 : ∀ a, (![41, 0] : Fin 2 → Nat) a + S1x128.size a ≤ S64x128.size a
  inb_S64x128_S1x128_42_0 : ∀ a, (![42, 0] : Fin 2 → Nat) a + S1x128.size a ≤ S64x128.size a
  inb_S64x128_S1x128_43_0 : ∀ a, (![43, 0] : Fin 2 → Nat) a + S1x128.size a ≤ S64x128.size a
  inb_S64x128_S1x128_44_0 : ∀ a, (![44, 0] : Fin 2 → Nat) a + S1x128.size a ≤ S64x128.size a
  inb_S64x128_S1x128_45_0 : ∀ a, (![45, 0] : Fin 2 → Nat) a + S1x128.size a ≤ S64x128.size a
  inb_S64x128_S1x128_46_0 : ∀ a, (![46, 0] : Fin 2 → Nat) a + S1x128.size a ≤ S64x128.size a
  inb_S64x128_S1x128_47_0 : ∀ a, (![47, 0] : Fin 2 → Nat) a + S1x128.size a ≤ S64x128.size a
  inb_S64x128_S1x128_48_0 : ∀ a, (![48, 0] : Fin 2 → Nat) a + S1x128.size a ≤ S64x128.size a
  inb_S64x128_S1x128_49_0 : ∀ a, (![49, 0] : Fin 2 → Nat) a + S1x128.size a ≤ S64x128.size a
  inb_S64x128_S1x128_50_0 : ∀ a, (![50, 0] : Fin 2 → Nat) a + S1x128.size a ≤ S64x128.size a
  inb_S64x128_S1x128_51_0 : ∀ a, (![51, 0] : Fin 2 → Nat) a + S1x128.size a ≤ S64x128.size a
  inb_S64x128_S1x128_52_0 : ∀ a, (![52, 0] : Fin 2 → Nat) a + S1x128.size a ≤ S64x128.size a
  inb_S64x128_S1x128_53_0 : ∀ a, (![53, 0] : Fin 2 → Nat) a + S1x128.size a ≤ S64x128.size a
  inb_S64x128_S1x128_54_0 : ∀ a, (![54, 0] : Fin 2 → Nat) a + S1x128.size a ≤ S64x128.size a
  inb_S64x128_S1x128_55_0 : ∀ a, (![55, 0] : Fin 2 → Nat) a + S1x128.size a ≤ S64x128.size a
  inb_S64x128_S1x128_56_0 : ∀ a, (![56, 0] : Fin 2 → Nat) a + S1x128.size a ≤ S64x128.size a
  inb_S64x128_S1x128_57_0 : ∀ a, (![57, 0] : Fin 2 → Nat) a + S1x128.size a ≤ S64x128.size a
  inb_S64x128_S1x128_58_0 : ∀ a, (![58, 0] : Fin 2 → Nat) a + S1x128.size a ≤ S64x128.size a
  inb_S64x128_S1x128_59_0 : ∀ a, (![59, 0] : Fin 2 → Nat) a + S1x128.size a ≤ S64x128.size a
  inb_S64x128_S1x128_60_0 : ∀ a, (![60, 0] : Fin 2 → Nat) a + S1x128.size a ≤ S64x128.size a
  inb_S64x128_S1x128_61_0 : ∀ a, (![61, 0] : Fin 2 → Nat) a + S1x128.size a ≤ S64x128.size a
  inb_S64x128_S1x128_62_0 : ∀ a, (![62, 0] : Fin 2 → Nat) a + S1x128.size a ≤ S64x128.size a
  inb_S64x128_S1x128_63_0 : ∀ a, (![63, 0] : Fin 2 → Nat) a + S1x128.size a ≤ S64x128.size a
  reduces_S64x128_S64 : S64x128.Reduces [1] S64
  shapeCasts_S64_S64x1 : S64.ShapeCasts S64x1
  shapeCasts_S64x1_S1x64x1 : S64x1.ShapeCasts S1x64x1
  inb_S1x64x1_S1x64x1_0_0_0 : ∀ a, (![0, 0, 0] : Fin 3 → Nat) a + S1x64x1.size a ≤ S1x64x1.size a
  h_S1x64x1 : 0 < S1x64x1.numel
  shapeCasts_S2x64x1_S2x64 : S2x64x1.ShapeCasts S2x64
  reducesTo_S2x64_S64_d0 : S2x64.ReducesTo [0] S64
  h_S_ : 0 < S_.numel
  bcast_S_S64 : S_.BroadcastsInDim S64 (![] : Fin 0 → Fin S64.rank)
  reducesTo_S64_S_d0 : S64.ReducesTo [0] S_
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .i32 = 32 ∨ (Rect.block (s := S131072x128) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S2x64x1.size a
  hwx0_2 : ∀ i : grid0.Coords, EltTy.bits .f32 = 32 ∨ (Rect.block (s := S2x64x1) S1x64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)

variable [Facts₀]

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x64x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x32768x8 : Shape := ⟨3, ![64, 32768, 8]⟩
abbrev S16777216 : Shape := ⟨1, ![16777216]⟩
abbrev S_ : Shape := ⟨0, ![]⟩
abbrev S64 : Shape := ⟨1, ![64]⟩
abbrev S16777216x1 : Shape := ⟨2, ![16777216, 1]⟩

abbrev nBuf : Space → Nat
  | .hbm => 25
  | .vmem => 0
  | .smem => 0
  | _ => 0

abbrev bufTy : (tb : Table) → Fin (tcTables nBuf tb) → BufTy
  | .hbm, ⟨0, _⟩ => ⟨S64x32768x8, .f32⟩
  | .hbm, ⟨1, _⟩ => ⟨S64x32768x8, .i32⟩
  | .hbm, ⟨2, _⟩ => ⟨S16777216, .i32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S_, .f32⟩
  | .hbm, ⟨7, _⟩ => ⟨S64, .f32⟩
  | .hbm, ⟨8, _⟩ => ⟨S16777216x1, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S16777216x1, .i32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S64x32768x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  shapeCasts_S64x32768x8_S16777216 : S64x32768x8.ShapeCasts S16777216
  bcast_S_S16777216 : S_.BroadcastsInDim S16777216 (![] : Fin 0 → Fin S16777216.rank)
  bcast_S_S64 : S_.BroadcastsInDim S64 (![] : Fin 0 → Fin S64.rank)
  bcast_S16777216_S16777216x1_0 : S16777216.BroadcastsInDim S16777216x1 (![0] : Fin 1 → Fin S16777216x1.rank)
  reducesTo_S64_S_d0 : S64.ReducesTo [0] S_
  h_S_ : 0 < S_.numel
  scatter_S64_S16777216x1_S16777216_n_0_0_1_wf : ScatterDims.WF S64 S16777216x1 S16777216 [] [0] [0] 1

variable [Facts₀]

def scatter_S64_S16777216x1_S16777216_n_0_0_1 : ScatterDims S64 S16777216x1 S16777216 where
  updateWindowDims := []
  insertedWindowDims := [0]
  scatterDimsToOperandDims := [0]
  indexVectorDim := 1
  wf := scatter_S64_S16777216x1_S16777216_n_0_0_1_wf

class Facts : Prop extends Facts₀ where

variable [Facts]
-- ==== Proof.Spec.lean ====
/-
  The mathematics of the load-balancing loss, free of any program.

  Every word of an index array is either the number of an expert (0 … 63, read signed) or it is not; `ind w e` is 1 or
  0 accordingly. Per expert the loss needs two sums over all 2^24 positions: the count of the positions whose word is
  the expert, and the sum of the gate values there. The kernel forms these sums block by block (a block is 4096 rows of
  128 lanes; a chunk is 512 rows of a block), sixteen blocks per core and two cores, keeping one partial sum per lane,
  and adds the lanes and the cores at the end; the reference sums over the flat positions. Addition of extended reals
  is commutative and associative, so the two arrangements agree.
-/
import Idealize.ShloMosaic.PureOps.Ideal
import Idealize.ShloMosaic.PureOps.Ideal.Laws
import Idealize.ShloMosaic.Lib.ValueIdx
import Mathlib.Algebra.BigOperators.Intervals
import Mathlib.Order.Interval.Finset.Nat

noncomputable section

namespace Cert.LBL

open Idealize.ShloMosaic Idealize.ShloMosaic.ValueIdx Finset

/-- 1 when the word, read as a signed integer, is the expert number `e`, else 0. -/
def ind (w : BitVec 32) (e : ℕ) : EReal := if w.toInt = (e : ℤ) then 1 else 0

/-- A rank-2 array of words as a function of two natural numbers (the zero word outside the array). -/
def natI {A B : ℕ} (X : (⟨2, ![A, B]⟩ : Shape).Idx → BitVec 32) : ℕ → ℕ → BitVec 32 :=
  fun n l => if h : n < A ∧ l < B then X (ix2 ⟨n, h.1⟩ ⟨l, h.2⟩) else 0#32

/-- A rank-2 array of extended reals as a function of two natural numbers (zero outside the array). -/
def natG {A B : ℕ} (X : (⟨2, ![A, B]⟩ : Shape).Idx → EReal) : ℕ → ℕ → EReal :=
  fun n l => if h : n < A ∧ l < B then X (ix2 ⟨n, h.1⟩ ⟨l, h.2⟩) else 0

/-- A rank-3 array with a trailing unit axis as a function of its two leading coordinates (zero outside). -/
def natG3 {A B : ℕ} (X : (⟨3, ![A, B, 1]⟩ : Shape).Idx → EReal) : ℕ → ℕ → EReal :=
  fun a b => if h : a < A ∧ b < B then X (ix3 ⟨a, h.1⟩ ⟨b, h.2⟩ (0 : Fin 1)) else 0

theorem natG3_apply {A B : ℕ} (X : (⟨3, ![A, B, 1]⟩ : Shape).Idx → EReal) (a : Fin A) (b : Fin B) :
    natG3 X a.val b.val = X (ix3 a b (0 : Fin 1)) := by
  unfold natG3; rw [dif_pos ⟨a.isLt, b.isLt⟩]

theorem natI_apply {A B : ℕ} (X : (⟨2, ![A, B]⟩ : Shape).Idx → BitVec 32) (n : Fin A) (l : Fin B) :
    natI X n.val l.val = X (ix2 n l) := by
  unfold natI; rw [dif_pos ⟨n.isLt, l.isLt⟩]

theorem natG_apply {A B : ℕ} (X : (⟨2, ![A, B]⟩ : Shape).Idx → EReal) (n : Fin A) (l : Fin B) :
    natG X n.val l.val = X (ix2 n l) := by
  unfold natG; rw [dif_pos ⟨n.isLt, l.isLt⟩]

/-! ## One chunk, one block, the blocks of a core so far -/

/-- Chunk `k` (rows 512k … 512k+511) of a block `Y`: how many of its words in lane `ℓ` are `e`. -/
def chunkCnt (Y : ℕ → ℕ → BitVec 32) (k e ℓ : ℕ) : EReal := ∑ r ∈ range 512, ind (Y (512 * k + r) ℓ) e

/-- The same chunk: the sum of the gate values at the words that are `e`. -/
def chunkGs (Y : ℕ → ℕ → BitVec 32) (Z : ℕ → ℕ → EReal) (k e ℓ : ℕ) : EReal :=
  ∑ r ∈ range 512, ind (Y (512 * k + r) ℓ) e * Z (512 * k + r) ℓ

/-- Block `s` (rows 4096 s … 4096 s + 4095) of the whole arrays. -/
def blkOf {α : Type} (I : ℕ → ℕ → α) (s : ℕ) : ℕ → ℕ → α := fun n l => I (s * 4096 + n) l

/-- A whole block: its eight chunks. -/
def blkCnt (I : ℕ → ℕ → BitVec 32) (s e ℓ : ℕ) : EReal := ∑ k ∈ range 8, chunkCnt (blkOf I s) k e ℓ
def blkGs (I : ℕ → ℕ → BitVec 32) (G : ℕ → ℕ → EReal) (s e ℓ : ℕ) : EReal :=
  ∑ k ∈ range 8, chunkGs (blkOf I s) (blkOf G s) k e ℓ

/-- What a core has accumulated after block `t`: the blocks from the first of its sixteen up to `t`. -/
def accCnt (I : ℕ → ℕ → BitVec 32) (t e ℓ : ℕ) : EReal := ∑ s ∈ Icc (t / 16 * 16) t, blkCnt I s e ℓ
def accGs (I : ℕ → ℕ → BitVec 32) (G : ℕ → ℕ → EReal) (t e ℓ : ℕ) : EReal :=
  ∑ s ∈ Icc (t / 16 * 16) t, blkGs I G s e ℓ

theorem accCnt_first (I : ℕ → ℕ → BitVec 32) (t e ℓ : ℕ) (h : t % 16 = 0) : accCnt I t e ℓ = blkCnt I t e ℓ := by
  unfold accCnt
  rw [show t / 16 * 16 = t by omega, Icc_self, sum_singleton]

theorem accGs_first (I : ℕ → ℕ → BitVec 32) (G : ℕ → ℕ → EReal) (t e ℓ : ℕ) (h : t % 16 = 0) :
    accGs I G t e ℓ = blkGs I G t e ℓ := by
  unfold accGs
  rw [show t / 16 * 16 = t by omega, Icc_self, sum_singleton]

theorem accCnt_next (I : ℕ → ℕ → BitVec 32) (t e ℓ : ℕ) (h : t % 16 ≠ 0) :
    accCnt I t e ℓ = accCnt I (t - 1) e ℓ + blkCnt I t e ℓ := by
  unfold accCnt
  obtain ⟨u, rfl⟩ : ∃ u, t = u + 1 := ⟨t - 1, by omega⟩
  rw [show (u + 1) / 16 * 16 = u / 16 * 16 by omega, Nat.add_sub_cancel]
  exact Finset.sum_Icc_succ_top (by omega) _

theorem accGs_next (I : ℕ → ℕ → BitVec 32) (G : ℕ → ℕ → EReal) (t e ℓ : ℕ) (h : t % 16 ≠ 0) :
    accGs I G t e ℓ = accGs I G (t - 1) e ℓ + blkGs I G t e ℓ := by
  unfold accGs
  obtain ⟨u, rfl⟩ : ∃ u, t = u + 1 := ⟨t - 1, by omega⟩
  rw [show (u + 1) / 16 * 16 = u / 16 * 16 by omega, Nat.add_sub_cancel]
  exact Finset.sum_Icc_succ_top (by omega) _

/-- A core's count and gate sum for an expert: its last accumulator, the lanes added. -/
def coreCnt (I : ℕ → ℕ → BitVec 32) (c e : ℕ) : EReal := ∑ ℓ ∈ range 128, accCnt I (16 * c + 15) e ℓ
def coreGs (I : ℕ → ℕ → BitVec 32) (G : ℕ → ℕ → EReal) (c e : ℕ) : EReal := ∑ ℓ ∈ range 128, accGs I G (16 * c + 15) e ℓ

/-! ## The flat sums of the reference -/

/-- Over the flat positions `n = 128 · row + lane`. -/
def flatCnt (I : ℕ → ℕ → BitVec 32) (e : ℕ) : EReal := ∑ n ∈ range 16777216, ind (I (n / 128) (n % 128)) e
def flatGs (I : ℕ → ℕ → BitVec 32) (G : ℕ → ℕ → EReal) (e : ℕ) : EReal :=
  ∑ n ∈ range 16777216, ind (I (n / 128) (n % 128)) e * G (n / 128) (n % 128)

/-! ## The loss from the per-expert sums -/

/-- Sixty-four times the sum over the experts of (count / 2^24) · (gate sum / 2^24). -/
def loss (cnt gs : ℕ → EReal) : EReal :=
  ((64 : ℝ) : EReal) * ∑ e ∈ range 64, (cnt e * ((1 / 16777216 : ℝ) : EReal)) * (gs e * ((1 / 16777216 : ℝ) : EReal))

end Cert.LBL

end
-- ==== Proof.Algebra.lean ====
/-
  The two facts of arithmetic the certificate rests on, and the float constants it meets.

  (1) A 32-bit word is the expert number e = 8·h + l (0 ≤ h, l < 8) exactly when its arithmetic shift right by three
      is h and its low three bits are l: the product of the two 0/1 tests is the one test `ind`.
  (2) Two cores × 128 lanes × sixteen blocks × eight chunks × 512 rows enumerate every flat position once.
-/
import proofs.«401345_j59141699666465_3_alg».proof.Proof.Spec

noncomputable section

namespace Cert.LBL

open Idealize.ShloMosaic Idealize.ShloMosaic.ValueIdx Finset

/-! ## The two radix tests -/

/-- A one-bit truth value widened to a word reads 1 or 0. -/
theorem toInt_flag (b : Bool) : (BitVec.setWidth 32 (BitVec.ofBool b)).toInt = if b then 1 else 0 := by
  cases b <;> decide

/-- The shift amount three is below the width, so the shift is the arithmetic one. -/
theorem shrsi_three (w : BitVec 32) : IntOp.shrsi .vector w 3#32 = w.sshiftRight 3 := by
  unfold IntOp.shrsi
  rw [if_pos (by decide)]
  rfl

/-- The kernel's two radix tests, each turned into a float 0/1 and multiplied, are the test "the word is e". -/
theorem mask_mul (w : BitVec 32) (e : ℕ) (he : e < 64) :
    (((BitVec.setWidth 32 (IntOp.cmpi .eq (IntOp.shrsi .vector w 3#32) (BitVec.ofNat 32 (e / 8)))).toInt : ℝ) : EReal)
      * (((BitVec.setWidth 32 (IntOp.cmpi .eq (IntOp.andi w 7#32) (BitVec.ofNat 32 (e % 8)))).toInt : ℝ) : EReal)
      = ind w e := by
  have hn := w.isLt
  have hi := BitVec.toInt_eq_toNat_cond w
  -- the high test, on integers: the floor of w / 8 is e / 8
  have hA : (w.sshiftRight 3 == BitVec.ofNat 32 (e / 8)) = decide (w.toInt / 8 = (e : ℤ) / 8) := by
    rw [Bool.eq_iff_iff, beq_iff_eq, decide_eq_true_eq, ← BitVec.toInt_inj, BitVec.toInt_sshiftRight,
      Int.shiftRight_eq_div_pow,
      BitVec.toInt_eq_toNat_of_lt (x := BitVec.ofNat 32 (e / 8)) (by rw [BitVec.toNat_ofNat]; omega),
      BitVec.toNat_ofNat]
    omega
  -- the low test, on naturals: w mod 8 is e mod 8
  have hB : (w &&& 7#32 == BitVec.ofNat 32 (e % 8)) = decide (w.toNat % 8 = e % 8) := by
    have h7 : (w &&& 7#32).toNat = w.toNat % 8 := by
      rw [BitVec.toNat_and]; exact Nat.and_two_pow_sub_one_eq_mod w.toNat 3
    rw [Bool.eq_iff_iff, beq_iff_eq, decide_eq_true_eq, ← BitVec.toNat_inj, h7, BitVec.toNat_ofNat]
    omega
  rw [shrsi_three]
  simp only [IntOp.andi, IntOp.cmpi]
  rw [toInt_flag, toInt_flag, hA, hB]
  unfold ind
  by_cases h : w.toInt = (e : ℤ)
  · have h1 : w.toInt / 8 = (e : ℤ) / 8 := by omega
    have h2 : w.toNat % 8 = e % 8 := by omega
    simp [h, h1, h2]
  · by_cases h1 : w.toInt / 8 = (e : ℤ) / 8
    · have h2 : ¬ (w.toNat % 8 = e % 8) := by omega
      simp [h, h1, h2]
    · simp [h, h1]

/-! ## The re-indexing of the sums -/

/-- Two digits: summing over a < A and b < B at a·B + b is summing over n < A·B. -/
theorem sum_two_digits {M : Type*} [AddCommMonoid M] (g : ℕ → M) (A B : ℕ) :
    ∑ a ∈ range A, ∑ b ∈ range B, g (a * B + b) = ∑ n ∈ range (A * B), g n := by
  induction A with
  | zero => simp
  | succ A ih => rw [sum_range_succ, ih, Nat.succ_mul, sum_range_add]

/-- The innermost of four sums moved outermost. -/
theorem sum_comm_last {M : Type*} [AddCommMonoid M] (A B C L : Finset ℕ) (F : ℕ → ℕ → ℕ → ℕ → M) :
    ∑ a ∈ A, ∑ b ∈ B, ∑ c ∈ C, ∑ l ∈ L, F a b c l = ∑ l ∈ L, ∑ a ∈ A, ∑ b ∈ B, ∑ c ∈ C, F a b c l :=
  calc ∑ a ∈ A, ∑ b ∈ B, ∑ c ∈ C, ∑ l ∈ L, F a b c l
      = ∑ a ∈ A, ∑ b ∈ B, ∑ l ∈ L, ∑ c ∈ C, F a b c l :=
        sum_congr rfl fun a _ => sum_congr rfl fun b _ => sum_comm
    _ = ∑ a ∈ A, ∑ l ∈ L, ∑ b ∈ B, ∑ c ∈ C, F a b c l := sum_congr rfl fun a _ => sum_comm
    _ = _ := sum_comm

/-- The rows 0 … 131071 are core c, block 16c + t, chunk k, row r of the chunk. -/
theorem sum_rows {M : Type*} [AddCommMonoid M] (h : ℕ → M) :
    ∑ m ∈ range 131072, h m
      = ∑ c ∈ range 2, ∑ t ∈ range 16, ∑ k ∈ range 8, ∑ r ∈ range 512, h ((16 * c + t) * 4096 + (512 * k + r)) := by
  have e1 : ∑ a ∈ range 256, ∑ r ∈ range 512, h (a * 512 + r) = ∑ m ∈ range 131072, h m :=
    sum_two_digits h 256 512
  have e2 : ∑ b ∈ range 32, ∑ k ∈ range 8, ∑ r ∈ range 512, h ((b * 8 + k) * 512 + r)
      = ∑ a ∈ range 256, ∑ r ∈ range 512, h (a * 512 + r) :=
    sum_two_digits (fun a => ∑ r ∈ range 512, h (a * 512 + r)) 32 8
  have e3 : ∑ c ∈ range 2, ∑ t ∈ range 16, ∑ k ∈ range 8, ∑ r ∈ range 512, h (((c * 16 + t) * 8 + k) * 512 + r)
      = ∑ b ∈ range 32, ∑ k ∈ range 8, ∑ r ∈ range 512, h ((b * 8 + k) * 512 + r) :=
    sum_two_digits (fun b => ∑ k ∈ range 8, ∑ r ∈ range 512, h ((b * 8 + k) * 512 + r)) 2 16
  rw [← e1, ← e2, ← e3]
  refine sum_congr rfl fun c _ => sum_congr rfl fun t _ => sum_congr rfl fun k _ => sum_congr rfl fun r _ => ?_
  congr 1; ring

/-- Sixteen consecutive blocks of a core. -/
theorem sum_core_blocks {M : Type*} [AddCommMonoid M] (g : ℕ → M) (c : ℕ) :
    ∑ s ∈ Icc ((16 * c + 15) / 16 * 16) (16 * c + 15), g s = ∑ t ∈ range 16, g (16 * c + t) := by
  have hI : Icc ((16 * c + 15) / 16 * 16) (16 * c + 15) = Ico (16 * c) (16 * c + 16) := by
    ext x; simp only [mem_Icc, mem_Ico]; omega
  rw [hI, sum_Ico_eq_sum_range]
  simp

/-- Cores, lanes, blocks, chunks and rows enumerate every flat position n = 128·row + lane once. -/
theorem sum_reindex {M : Type*} [AddCommMonoid M] (f : ℕ → ℕ → M) :
    ∑ c ∈ range 2, ∑ l ∈ range 128, ∑ s ∈ Icc ((16 * c + 15) / 16 * 16) (16 * c + 15), ∑ k ∈ range 8,
        ∑ r ∈ range 512, f (s * 4096 + (512 * k + r)) l
      = ∑ n ∈ range 16777216, f (n / 128) (n % 128) := by
  have h1 : ∑ n ∈ range 16777216, f (n / 128) (n % 128) = ∑ m ∈ range 131072, ∑ l ∈ range 128, f m l := by
    rw [← sum_two_digits (fun n => f (n / 128) (n % 128)) 131072 128]
    refine sum_congr rfl fun m _ => sum_congr rfl fun l hl => ?_
    have := mem_range.1 hl
    rw [show (m * 128 + l) / 128 = m by omega, show (m * 128 + l) % 128 = l by omega]
  rw [h1, sum_rows]
  refine sum_congr rfl fun c _ => ?_
  rw [sum_comm_last (range 16) (range 8) (range 512) (range 128)]
  refine sum_congr rfl fun l _ => ?_
  rw [sum_core_blocks]

/-- The cores' counts add up to the flat count. -/
theorem cores_cnt (I : ℕ → ℕ → BitVec 32) (e : ℕ) : ∑ c ∈ range 2, coreCnt I c e = flatCnt I e := by
  simp only [coreCnt, accCnt, blkCnt, chunkCnt, blkOf, flatCnt]
  exact sum_reindex (fun n l => ind (I n l) e)

/-- The cores' gate sums add up to the flat gate sum. -/
theorem cores_gs (I : ℕ → ℕ → BitVec 32) (G : ℕ → ℕ → EReal) (e : ℕ) : ∑ c ∈ range 2, coreGs I G c e = flatGs I G e := by
  simp only [coreGs, accGs, blkGs, chunkGs, blkOf, flatGs]
  exact sum_reindex (fun n l => ind (I n l) e * G n l)

/-! ## Constants -/

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
/-- 2^24. -/
theorem ofBits_total : Ideal.ofBits .f32 0x4B800000#32 = ((16777216 : ℝ) : EReal) := by
  simp [Ideal.ofBits, Ideal.ieee, -EReal.coe_mul]; norm_num
/-- 2^-24. -/
theorem ofBits_inv_total : Ideal.ofBits .f32 0x33800000#32 = ((1 / 16777216 : ℝ) : EReal) := by
  simp [Ideal.ofBits, Ideal.ieee, -EReal.coe_mul]; norm_num
/-- Dividing by 2^24 is multiplying by 2^-24, on every extended real. -/
theorem div_total (x : EReal) : Ideal.div x ((16777216 : ℝ) : EReal) = x * ((1 / 16777216 : ℝ) : EReal) :=
  Ideal.div_coe (by norm_num) x

end Cert.LBL

end
-- ==== Proof.Streams.lean ====
/-
  The two [131072, 128] arrays the region streams, as functions of row and lane.
-/
import proofs.«401345_j59141699666465_3_alg».proof.Defs
import proofs.«401345_j59141699666465_3_alg».proof.Proof.Gen.KernelIdeal.Frame
import proofs.«401345_j59141699666465_3_alg».proof.Proof.Algebra
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.KRun

open Cert.KernelIdeal Cert.KernelIdeal.Gen Cert.LBL Finset

variable (m : (ℓ : Loc nD τ sig) → Buf (Elt Ideal) ℓ)

/-- The index words the region streams, by row and lane. -/
def II (c : Dev nD) : ℕ → ℕ → BitVec 32 := natI (V m c main_v3 : S131072x128.Idx → BitVec 32)
/-- The gates the region streams, by row and lane. -/
def GG (c : Dev nD) : ℕ → ℕ → EReal := natG (V m c main_v2 : S131072x128.Idx → EReal)

end Cert.KernelIdeal.KRun

end
-- ==== Proof.Trip.lean ====
/-
  One trip of the kernel's chunk loop. Chunk k is 512 rows of the block in the index staging buffer and of the gate
  staging buffer. For each expert e = 8h + l the trip forms, lane by lane, the sum over the chunk's rows of the product
  of the two 0/1 tests (high digit h, low digit l) — the count of the words that are e — and the same sum with each
  term multiplied by the gate, and adds them into row e of the two accumulator buffers. So after the trip each
  accumulator holds what it held before plus the chunk's count, respectively the chunk's gate sum.
-/
import proofs.«401345_j59141699666465_3_alg».proof.Defs
import proofs.«401345_j59141699666465_3_alg».proof.Proof.Gen.KernelIdeal.Frame
import proofs.«401345_j59141699666465_3_alg».proof.Proof.Algebra
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Trip

open Cert.KernelIdeal Cert.KernelIdeal.Gen Cert.LBL Finset

/-- The high-digit test of a chunk of words as a 0/1 float vector. -/
abbrev MH (x : IVec S512x128 32) (h : BitVec 32) : FVec Ideal S512x128 .f32 :=
  sitofp .f32 (extui 32 (cmpi .eq (shrsi x (broadcast S512x128 (3#32 : BitVec 32))) (broadcast S512x128 h)) Facts₀.natLt_1_32)

/-- The low-digit test. -/
abbrev ML (x : IVec S512x128 32) (l : BitVec 32) : FVec Ideal S512x128 .f32 :=
  sitofp .f32 (extui 32 (cmpi .eq (andi x (broadcast S512x128 (7#32 : BitVec 32))) (broadcast S512x128 l)) Facts₀.natLt_1_32)

/-- A row of the count accumulator after the trip: what it held plus the chunk's row sums of the mask. -/
abbrev ROW6 (a : Vec Ideal S1x128 .f32) (x : IVec S512x128 32) (h l : BitVec 32) : FVec Ideal S1x128 .f32 :=
  shapeCast S1x128 (addf a (shapeCast S1x128 (multiReduction .add [0] S128 (mulf (MH x h) (ML x l)) 0x00000000#32
    Facts₀.reduces_S512x128_S128 (.inl rfl) rfl) Facts₀.shapeCasts_S128_S1x128)) Facts₀.shapeCasts_S1x128_S1x128

/-- A row of the gate accumulator after the trip: what it held plus the chunk's row sums of mask times gate. -/
abbrev ROW7 (a : Vec Ideal S1x128 .f32) (g : FVec Ideal S512x128 .f32) (x : IVec S512x128 32) (h l : BitVec 32) :
    FVec Ideal S1x128 .f32 :=
  shapeCast S1x128 (addf a (shapeCast S1x128 (multiReduction .add [0] S128 (mulf (mulf (MH x h) (ML x l)) g) 0x00000000#32
    Facts₀.reduces_S512x128_S128 (.inl rfl) rfl) Facts₀.shapeCasts_S128_S1x128)) Facts₀.shapeCasts_S1x128_S1x128

/-- The product of the two tests at an element is the test "the word is e". -/
theorem mask_apply (x : IVec S512x128 32) (e : ℕ) (he : e < 64) (i : S512x128.Idx) :
    mulf (MH x (BitVec.ofNat 32 (e / 8))) (ML x (BitVec.ofNat 32 (e % 8))) i = ind (x i) e :=
  mask_mul (x i) e he

/-- The count row at lane q: the old value plus the number of the chunk's words in that lane that are e. -/
theorem ROW6_apply (a : Vec Ideal S1x128 .f32) (x : IVec S512x128 32) (e : ℕ) (he : e < 64) (u : Fin 1) (q : Fin 128) :
    ROW6 a x (BitVec.ofNat 32 (e / 8)) (BitVec.ofNat 32 (e % 8)) (ix2 u q)
      = a (ix2 u q) + ∑ r : Fin 512, ind (x (ix2 r q)) e := by
  unfold ROW6
  rw [shapeCast_self, addf_apply, shapeCast_a_1a_apply]
  refine congrArg (a (ix2 u q) + ·) ?_
  refine (Ideal.multiReduction_add_single _ 0x00000000#32 Facts₀.reduces_S512x128_S128 (.inl rfl) rfl (ix1 q)).trans ?_
  refine Finset.sum_congr rfl fun r _ => ?_
  refine (mask_apply x e he _).trans ?_
  refine congrArg (fun j => ind (x j) e) ?_
  funext d; refine Fin.ext ?_
  match d with
  | ⟨0, _⟩ => rfl
  | ⟨1, _⟩ => rfl

/-- The gate row at lane q: the old value plus the sum of the chunk's gates in that lane at the words that are e. -/
theorem ROW7_apply (a : Vec Ideal S1x128 .f32) (g : FVec Ideal S512x128 .f32) (x : IVec S512x128 32) (e : ℕ) (he : e < 64)
    (u : Fin 1) (q : Fin 128) :
    ROW7 a g x (BitVec.ofNat 32 (e / 8)) (BitVec.ofNat 32 (e % 8)) (ix2 u q)
      = a (ix2 u q) + ∑ r : Fin 512, ind (x (ix2 r q)) e * g (ix2 r q) := by
  unfold ROW7
  rw [shapeCast_self, addf_apply, shapeCast_a_1a_apply]
  refine congrArg (a (ix2 u q) + ·) ?_
  refine (Ideal.multiReduction_add_single _ 0x00000000#32 Facts₀.reduces_S512x128_S128 (.inl rfl) rfl (ix1 q)).trans ?_
  refine Finset.sum_congr rfl fun r _ => ?_
  refine (congrArg₂ (· * ·) (mask_apply x e he _) rfl).trans ?_
  refine congrArg (fun j => ind (x j) e * g j) ?_
  funext d; refine Fin.ext ?_
  match d with
  | ⟨0, _⟩ => rfl
  | ⟨1, _⟩ => rfl

/-- What the count accumulator holds after a trip, as a function of the index: what it held (`R`) plus the count of
    the chunk `x`. -/
def after6 (R : S64x128.Idx → EReal) (x : IVec S512x128 32) (y : S64x128.Idx) : EReal :=
  R y + ∑ r : Fin 512, ind (x (ix2 r ⟨(y 1).val, (y 1).isLt⟩)) (y 0).val

/-- What the gate accumulator holds after a trip: what it held plus the gate sum of the chunk. -/
def after7 (R : S64x128.Idx → EReal) (g : FVec Ideal S512x128 .f32) (x : IVec S512x128 32) (y : S64x128.Idx) : EReal :=
  R y + ∑ r : Fin 512, ind (x (ix2 r ⟨(y 1).val, (y 1).isLt⟩)) (y 0).val * g (ix2 r ⟨(y 1).val, (y 1).isLt⟩)

/-- The store into row n of the count accumulator is the row of `after6`. -/
theorem row6_piece (n : ℕ) (hn : n < 64) (inb : ∀ a, (![n, 0] : Fin 2 → ℕ) a + (![1, 128] : Fin 2 → ℕ) a ≤ S64x128.size a)
    (R : S64x128.Idx → EReal) (x : IVec S512x128 32) (h l : BitVec 32)
    (hh : h = BitVec.ofNat 32 (n / 8)) (hl : l = BitVec.ofNat 32 (n % 8))
    (j : (Rect.unit (s := S64x128) ![n, 0] ![1, 128] inb).shape.Idx) :
    ROW6 (View.ld R (Rect.unit (s := S64x128) ![n, 0] ![1, 128] inb)) x h l j
      = after6 R x ((Rect.unit (s := S64x128) ![n, 0] ![1, 128] inb).emb j) := by
  subst hh hl
  obtain ⟨u, q, rfl⟩ : ∃ (u : Fin 1) (q : Fin 128), j = ix2 u q := ⟨j 0, j 1, eq_ix2 j⟩
  refine (ROW6_apply _ x n hn u q).trans ?_
  have hu : u.val = 0 := by omega
  unfold after6
  have e0 : (((Rect.unit (s := S64x128) ![n, 0] ![1, 128] inb).emb (ix2 u q)) 0).val = n := by
    show n + 1 * u.val = n
    omega
  have e1 : (((Rect.unit (s := S64x128) ![n, 0] ![1, 128] inb).emb (ix2 u q)) 1).val = q.val := by
    show 0 + 1 * q.val = q.val
    omega
  rw [e0]
  refine congrArg₂ (· + ·) rfl (Finset.sum_congr rfl fun r _ => ?_)
  refine congrArg (fun z => ind (x (ix2 r z)) n) (Fin.ext e1.symm)

/-- The store into row n of the gate accumulator is the row of `after7`. -/
theorem row7_piece (n : ℕ) (hn : n < 64) (inb : ∀ a, (![n, 0] : Fin 2 → ℕ) a + (![1, 128] : Fin 2 → ℕ) a ≤ S64x128.size a)
    (R : S64x128.Idx → EReal) (g : FVec Ideal S512x128 .f32) (x : IVec S512x128 32) (h l : BitVec 32)
    (hh : h = BitVec.ofNat 32 (n / 8)) (hl : l = BitVec.ofNat 32 (n % 8))
    (j : (Rect.unit (s := S64x128) ![n, 0] ![1, 128] inb).shape.Idx) :
    ROW7 (View.ld R (Rect.unit (s := S64x128) ![n, 0] ![1, 128] inb)) g x h l j
      = after7 R g x ((Rect.unit (s := S64x128) ![n, 0] ![1, 128] inb).emb j) := by
  subst hh hl
  obtain ⟨u, q, rfl⟩ : ∃ (u : Fin 1) (q : Fin 128), j = ix2 u q := ⟨j 0, j 1, eq_ix2 j⟩
  refine (ROW7_apply _ g x n hn u q).trans ?_
  have hu : u.val = 0 := by omega
  unfold after7
  have e0 : (((Rect.unit (s := S64x128) ![n, 0] ![1, 128] inb).emb (ix2 u q)) 0).val = n := by
    show n + 1 * u.val = n
    omega
  have e1 : (((Rect.unit (s := S64x128) ![n, 0] ![1, 128] inb).emb (ix2 u q)) 1).val = q.val := by
    show 0 + 1 * q.val = q.val
    omega
  rw [e0]
  refine congrArg₂ (· + ·) rfl (Finset.sum_congr rfl fun r _ => ?_)
  refine congrArg (fun z => ind (x (ix2 r z)) n * g (ix2 r z)) (Fin.ext e1.symm)

/-! ## The trip's stores, read -/

section
variable (c : Dev nD) (i : grid0.Coords) (arg2 : Memref sig .tc .vmem S4096x128 .f32) (harg2 : arg2.IsWhole)
  (arg3 : Memref sig .tc .vmem S4096x128 .i32) (harg3 : arg3.IsWhole) (arg4 : Memref sig .tc .vmem S1x64x1 .f32) (harg4 : arg4.IsWhole)
  (arg5 : Memref sig .tc .vmem S1x64x1 .f32) (harg5 : arg5.IsWhole) (arg6 : Memref sig .tc .vmem S64x128 .f32) (harg6 : arg6.IsWhole)
  (arg7 : Memref sig .tc .vmem S64x128 .f32) (harg7 : arg7.IsWhole)
  (X2 : BufTy.Contents (Elt Ideal) arg2.view.ty) (X3 : BufTy.Contents (Elt Ideal) arg3.view.ty) (k : Fin k0_t1_loop.trips)
  (f6 : BufTy.Contents (Elt Ideal) arg6.view.ty) (f7 : BufTy.Contents (Elt Ideal) arg7.view.ty)

/-- Chunk k of the index block, as the trip loads it. -/
abbrev chunkI : IVec S512x128 32 :=
  shapeCast S512x128 (View.readAt (Elt Ideal) arg3.view
    (Rect.unit (s := S4096x128) (k0_off1 k) S512x128.size (Facts₀.k0_off1_inb k)).toLoadRect X3) Facts₀.shapeCasts_S512x128_S512x128

/-- Chunk k of the gate block, as the trip loads it. -/
abbrev chunkG : FVec Ideal S512x128 .f32 :=
  shapeCast S512x128 (View.readAt (Elt Ideal) arg2.view
    (Rect.unit (s := S4096x128) (k0_off1 k) S512x128.size (Facts₀.k0_off1_inb k)).toLoadRect X2) Facts₀.shapeCasts_S512x128_S512x128

set_option maxHeartbeats 4000000 in
/-- Each of the trip's 64 stores into the count accumulator writes the row of `after6`. -/
theorem trip6_pieces :
    ∀ p ∈ (trip_k0_t1 (F := Ideal) Variants.none c none i arg2 harg2 arg3 harg3 arg4 harg4 arg5 harg5 arg6 harg6 arg7 harg7 X2 X3 k).1 f6 f7,
      ∀ x : p.1.shape.Idx, p.2 x = after6 (arg6.view.read (Elt Ideal) f6) (chunkI arg3 X3 k) (p.1.emb x) := by
  unfold trip_k0_t1
  dsimp only
  repeat' (first | exact (fun _ h => (List.not_mem_nil h).elim) | refine List.forall_mem_cons.2 ⟨?_, ?_⟩)
  all_goals (intro x; exact row6_piece _ (by decide) _ (arg6.view.read (Elt Ideal) f6) (chunkI arg3 X3 k) _ _ rfl rfl x)

set_option maxHeartbeats 4000000 in
/-- Each of the trip's 64 stores into the gate accumulator writes the row of `after7`. -/
theorem trip7_pieces :
    ∀ p ∈ (trip_k0_t1 (F := Ideal) Variants.none c none i arg2 harg2 arg3 harg3 arg4 harg4 arg5 harg5 arg6 harg6 arg7 harg7 X2 X3 k).2.1 f6 f7,
      ∀ x : p.1.shape.Idx, p.2 x = after7 (arg7.view.read (Elt Ideal) f7) (chunkG arg2 X2 k) (chunkI arg3 X3 k) (p.1.emb x) := by
  unfold trip_k0_t1
  dsimp only
  repeat' (first | exact (fun _ h => (List.not_mem_nil h).elim) | refine List.forall_mem_cons.2 ⟨?_, ?_⟩)
  all_goals (intro x; exact row7_piece _ (by decide) _ (arg7.view.read (Elt Ideal) f7) (chunkG arg2 X2 k) (chunkI arg3 X3 k) _ _ rfl rfl x)

/-- The 64 row stores into the count accumulator cover it. -/
theorem trip6_cover (y : S64x128.Idx) :
    ∃ p ∈ (trip_k0_t1 (F := Ideal) Variants.none c none i arg2 harg2 arg3 harg3 arg4 harg4 arg5 harg5 arg6 harg6 arg7 harg7 X2 X3 k).1 f6 f7,
      y ∈ p.1.set := by
  refine View.cover_of_tiledL (s := S64x128) _ S1x128.size ?_ y
  unfold trip_k0_t1
  sl_kernel_rfl

/-- The 64 row stores into the gate accumulator cover it. -/
theorem trip7_cover (y : S64x128.Idx) :
    ∃ p ∈ (trip_k0_t1 (F := Ideal) Variants.none c none i arg2 harg2 arg3 harg3 arg4 harg4 arg5 harg5 arg6 harg6 arg7 harg7 X2 X3 k).2.1 f6 f7,
      y ∈ p.1.set := by
  refine View.cover_of_tiledL (s := S64x128) _ S1x128.size ?_ y
  unfold trip_k0_t1
  sl_kernel_rfl

/-- After the trip the count accumulator holds what it held plus the chunk's count. -/
theorem trip6_read :
    arg6.view.read (Elt Ideal) (arg6.view.writes (Elt Ideal) f6
        ((trip_k0_t1 (F := Ideal) Variants.none c none i arg2 harg2 arg3 harg3 arg4 harg4 arg5 harg5 arg6 harg6 arg7 harg7 X2 X3 k).1 f6 f7))
      = after6 (arg6.view.read (Elt Ideal) f6) (chunkI arg3 X3 k) := by
  rw [View.read_writes_eq_canon _ _ _ (trip6_cover c i arg2 harg2 arg3 harg3 arg4 harg4 arg5 harg5 arg6 harg6 arg7 harg7 X2 X3 k f6 f7)]
  funext y
  exact View.canon_apply_of_pieces _ _ (trip6_pieces c i arg2 harg2 arg3 harg3 arg4 harg4 arg5 harg5 arg6 harg6 arg7 harg7 X2 X3 k f6 f7) y
    (trip6_cover c i arg2 harg2 arg3 harg3 arg4 harg4 arg5 harg5 arg6 harg6 arg7 harg7 X2 X3 k f6 f7 y)

/-- After the trip the gate accumulator holds what it held plus the chunk's gate sum. -/
theorem trip7_read :
    arg7.view.read (Elt Ideal) (arg7.view.writes (Elt Ideal) f7
        ((trip_k0_t1 (F := Ideal) Variants.none c none i arg2 harg2 arg3 harg3 arg4 harg4 arg5 harg5 arg6 harg6 arg7 harg7 X2 X3 k).2.1 f6 f7))
      = after7 (arg7.view.read (Elt Ideal) f7) (chunkG arg2 X2 k) (chunkI arg3 X3 k) := by
  rw [View.read_writes_eq_canon _ _ _ (trip7_cover c i arg2 harg2 arg3 harg3 arg4 harg4 arg5 harg5 arg6 harg6 arg7 harg7 X2 X3 k f6 f7)]
  funext y
  exact View.canon_apply_of_pieces _ _ (trip7_pieces c i arg2 harg2 arg3 harg3 arg4 harg4 arg5 harg5 arg6 harg6 arg7 harg7 X2 X3 k f6 f7) y
    (trip7_cover c i arg2 harg2 arg3 harg3 arg4 harg4 arg5 harg5 arg6 harg6 arg7 harg7 X2 X3 k f6 f7 y)

end

end Cert.KernelIdeal.Trip

end
-- ==== Proof.Loop.lean ====
/-
  The kernel's chunk loop: eight trips, each adding one chunk's count and gate sum into the two accumulators. After n
  trips an accumulator holds what it held at the loop's entry plus the sums of the first n chunks of the block.
-/
import proofs.«401345_j59141699666465_3_alg».proof.Defs
import proofs.«401345_j59141699666465_3_alg».proof.Proof.Gen.KernelIdeal.Frame
import proofs.«401345_j59141699666465_3_alg».proof.Proof.Algebra
import proofs.«401345_j59141699666465_3_alg».proof.Proof.Trip
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Loop

open Cert.KernelIdeal Cert.KernelIdeal.Gen Cert.LBL Cert.KernelIdeal.Trip Finset

section
variable (c : Dev nD) (i : grid0.Coords) (arg2 : Memref sig .tc .vmem S4096x128 .f32) (harg2 : arg2.IsWhole)
  (arg3 : Memref sig .tc .vmem S4096x128 .i32) (harg3 : arg3.IsWhole) (arg4 : Memref sig .tc .vmem S1x64x1 .f32) (harg4 : arg4.IsWhole)
  (arg5 : Memref sig .tc .vmem S1x64x1 .f32) (harg5 : arg5.IsWhole) (arg6 : Memref sig .tc .vmem S64x128 .f32) (harg6 : arg6.IsWhole)
  (arg7 : Memref sig .tc .vmem S64x128 .f32) (harg7 : arg7.IsWhole)
  (X2 : BufTy.Contents (Elt Ideal) arg2.view.ty) (X3 : BufTy.Contents (Elt Ideal) arg3.view.ty)

/-- The loop runs eight trips. -/
theorem trips_eq : k0_t1_loop.trips = 8 := by
  exact Nat.le_antisymm k0_t1_abs.2.1 (by decide)

/-- Row r of chunk k, as loaded, is row 512 k + r of the index block. -/
theorem chunkI_apply (k : Fin k0_t1_loop.trips) (r : Fin 512) (q : Fin 128) :
    chunkI arg3 X3 k (ix2 r q)
      = natI (arg3.view.read (Elt Ideal) X3 : S4096x128.Idx → BitVec 32) (512 * k.val + r.val) q.val := by
  have hk : k.val < 8 := Nat.lt_of_lt_of_le k.isLt k0_t1_abs.2.1
  have hrow : 512 * k.val + r.val < 4096 := by omega
  have h0 : k0_off1 k 0 = 512 * k.val := by rw [k0_off1_eq k]; rfl
  have h1 : k0_off1 k 1 = 0 := by rw [k0_off1_eq k]; rfl
  unfold chunkI
  refine (congrFun (shapeCast_self (s := S512x128) _ _) (ix2 r q)).trans ?_
  refine Eq.trans ?_ (natI_apply (arg3.view.read (Elt Ideal) X3 : S4096x128.Idx → BitVec 32) ⟨512 * k.val + r.val, hrow⟩ q).symm
  rw [View.readAt_apply]
  refine congrArg (arg3.view.read (Elt Ideal) X3) ?_
  funext a; refine Fin.ext ?_
  match a with
  | ⟨0, _⟩ =>
    show k0_off1 k 0 + 1 * r.val = 512 * k.val + r.val
    omega
  | ⟨1, _⟩ =>
    show k0_off1 k 1 + 1 * q.val = q.val
    omega

/-- Row r of chunk k, as loaded, is row 512 k + r of the gate block. -/
theorem chunkG_apply (k : Fin k0_t1_loop.trips) (r : Fin 512) (q : Fin 128) :
    chunkG arg2 X2 k (ix2 r q)
      = natG (arg2.view.read (Elt Ideal) X2 : S4096x128.Idx → EReal) (512 * k.val + r.val) q.val := by
  have hk : k.val < 8 := Nat.lt_of_lt_of_le k.isLt k0_t1_abs.2.1
  have hrow : 512 * k.val + r.val < 4096 := by omega
  have h0 : k0_off1 k 0 = 512 * k.val := by rw [k0_off1_eq k]; rfl
  have h1 : k0_off1 k 1 = 0 := by rw [k0_off1_eq k]; rfl
  unfold chunkG
  refine (congrFun (shapeCast_self (s := S512x128) _ _) (ix2 r q)).trans ?_
  refine Eq.trans ?_ (natG_apply (arg2.view.read (Elt Ideal) X2 : S4096x128.Idx → EReal) ⟨512 * k.val + r.val, hrow⟩ q).symm
  rw [View.readAt_apply]
  refine congrArg (arg2.view.read (Elt Ideal) X2) ?_
  funext a; refine Fin.ext ?_
  match a with
  | ⟨0, _⟩ =>
    show k0_off1 k 0 + 1 * r.val = 512 * k.val + r.val
    omega
  | ⟨1, _⟩ =>
    show k0_off1 k 1 + 1 * q.val = q.val
    omega

/-- The count accumulator after n trips, from contents G6 G7 at the loop's entry. -/
theorem loop6 (G6 : BufTy.Contents (Elt Ideal) arg6.view.ty) (G7 : BufTy.Contents (Elt Ideal) arg7.view.ty)
    (n : ℕ) (hn : n ≤ k0_t1_loop.trips) (y : S64x128.Idx) :
    arg6.view.read (Elt Ideal) (arg6.view.writes (Elt Ideal) G6
        (pb_k0_t1 (F := Ideal) Variants.none c none i arg2 harg2 arg3 harg3 arg4 harg4 arg5 harg5 arg6 harg6 arg7 harg7 X2 X3 G6 G7 n).1) y
      = arg6.view.read (Elt Ideal) G6 y
        + ∑ k ∈ range n, chunkCnt (natI (arg3.view.read (Elt Ideal) X3 : S4096x128.Idx → BitVec 32)) k (y 0).val (y 1).val := by
  induction n with
  | zero =>
    rw [Finset.range_zero, Finset.sum_empty, add_zero]
    rfl
  | succ n ih =>
    have hlt : n < k0_t1_loop.trips := hn
    have ih' := ih (Nat.le_of_lt hlt)
    have hs := congrArg Prod.fst (pb_k0_t1_succ (F := Ideal) Variants.none c none i arg2 harg2 arg3 harg3 arg4 harg4 arg5 harg5
      arg6 harg6 arg7 harg7 X2 X3 G6 G7 ⟨n, hlt⟩)
    rw [hs]
    dsimp only
    rw [View.writes_append]
    refine (congrFun (trip6_read c i arg2 harg2 arg3 harg3 arg4 harg4 arg5 harg5 arg6 harg6 arg7 harg7 X2 X3 ⟨n, hlt⟩ _ _) y).trans ?_
    unfold after6
    rw [ih', Finset.sum_range_succ, add_assoc]
    refine congrArg₂ (· + ·) rfl (congrArg₂ (· + ·) rfl ?_)
    unfold chunkCnt
    refine Eq.trans ?_ (Fin.sum_univ_eq_sum_range
      (fun r => ind (natI (arg3.view.read (Elt Ideal) X3 : S4096x128.Idx → BitVec 32) (512 * n + r) (y 1).val) (y 0).val) 512)
    refine Finset.sum_congr rfl fun r _ => ?_
    exact congrArg (fun w => ind w (y 0).val) (chunkI_apply arg3 X3 ⟨n, hlt⟩ r ⟨(y 1).val, (y 1).isLt⟩)

/-- The gate accumulator after n trips. -/
theorem loop7 (G6 : BufTy.Contents (Elt Ideal) arg6.view.ty) (G7 : BufTy.Contents (Elt Ideal) arg7.view.ty)
    (n : ℕ) (hn : n ≤ k0_t1_loop.trips) (y : S64x128.Idx) :
    arg7.view.read (Elt Ideal) (arg7.view.writes (Elt Ideal) G7
        (pb_k0_t1 (F := Ideal) Variants.none c none i arg2 harg2 arg3 harg3 arg4 harg4 arg5 harg5 arg6 harg6 arg7 harg7 X2 X3 G6 G7 n).2) y
      = arg7.view.read (Elt Ideal) G7 y
        + ∑ k ∈ range n, chunkGs (natI (arg3.view.read (Elt Ideal) X3 : S4096x128.Idx → BitVec 32))
            (natG (arg2.view.read (Elt Ideal) X2 : S4096x128.Idx → EReal)) k (y 0).val (y 1).val := by
  induction n with
  | zero =>
    rw [Finset.range_zero, Finset.sum_empty, add_zero]
    rfl
  | succ n ih =>
    have hlt : n < k0_t1_loop.trips := hn
    have ih' := ih (Nat.le_of_lt hlt)
    have hs := congrArg Prod.snd (pb_k0_t1_succ (F := Ideal) Variants.none c none i arg2 harg2 arg3 harg3 arg4 harg4 arg5 harg5
      arg6 harg6 arg7 harg7 X2 X3 G6 G7 ⟨n, hlt⟩)
    rw [hs]
    dsimp only
    rw [View.writes_append]
    refine (congrFun (trip7_read c i arg2 harg2 arg3 harg3 arg4 harg4 arg5 harg5 arg6 harg6 arg7 harg7 X2 X3 ⟨n, hlt⟩ _ _) y).trans ?_
    unfold after7
    rw [ih', Finset.sum_range_succ, add_assoc]
    refine congrArg₂ (· + ·) rfl (congrArg₂ (· + ·) rfl ?_)
    unfold chunkGs
    refine Eq.trans ?_ (Fin.sum_univ_eq_sum_range
      (fun r => ind (natI (arg3.view.read (Elt Ideal) X3 : S4096x128.Idx → BitVec 32) (512 * n + r) (y 1).val) (y 0).val
        * natG (arg2.view.read (Elt Ideal) X2 : S4096x128.Idx → EReal) (512 * n + r) (y 1).val) 512)
    refine Finset.sum_congr rfl fun r _ => ?_
    exact congrArg₂ (fun w g => ind w (y 0).val * g) (chunkI_apply arg3 X3 ⟨n, hlt⟩ r ⟨(y 1).val, (y 1).isLt⟩)
      (chunkG_apply arg2 X2 ⟨n, hlt⟩ r ⟨(y 1).val, (y 1).isLt⟩)

end

end Cert.KernelIdeal.Loop

end
-- ==== Proof.Cases.lean ====
/-
  What one grid point's body leaves, in each of its three cases. At the first point of a core the body clears the two
  accumulators and then runs the chunk loop; at a later point it runs the loop over what the point before left; at the
  last point of a core it also writes, for each expert, the sum over the 128 lanes of each accumulator's row into the
  two output blocks.
-/
import proofs.«401345_j59141699666465_3_alg».proof.Defs
import proofs.«401345_j59141699666465_3_alg».proof.Proof.Gen.KernelIdeal.Frame
import proofs.«401345_j59141699666465_3_alg».proof.Proof.Algebra
import proofs.«401345_j59141699666465_3_alg».proof.Proof.Trip
import proofs.«401345_j59141699666465_3_alg».proof.Proof.Loop
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Cases

open Cert.KernelIdeal Cert.KernelIdeal.Gen Cert.LBL Cert.KernelIdeal.Trip Cert.KernelIdeal.Loop Finset

/-! ## The pieces the cases are made of -/

/-- The two zero offsets, however spelt. -/
theorem hz2 : (![0, 0] : Fin 2 → Nat) = fun _ => 0 := funext fun a => by fin_cases a <;> rfl

/-- A buffer after one store of its whole extent holds the stored value. -/
theorem read_fill {sg : RefSig} {κ : Kind} {sp : Space} (v : View sg κ sp S64x128 .f32) (f : v.ty.Contents (Elt Ideal))
    (inb : ∀ a, (![0, 0] : Fin 2 → Nat) a + S64x128.size a ≤ S64x128.size a) (w : S64x128.Idx → Elt Ideal .f32) :
    v.read (Elt Ideal) (v.writes (Elt Ideal) f [(⟨Rect.unit ![0, 0] S64x128.size inb, w⟩ : View.Piece (Elt Ideal) S64x128 .f32)]) = w := by
  rw [View.read_writes_eq_canon _ _ _ (fun y => ⟨_, List.mem_singleton_self _, View.mem_set_unit_zero hz2 inb y⟩)]
  exact View.canon_unit_zero hz2 inb w

/-- The cleared accumulator holds zero everywhere. -/
theorem pay1_apply (y : S64x128.Idx) : (k0_pay1 (F := Ideal)) y = 0 := by
  unfold k0_pay1
  rw [shapeCast_self]
  exact ofBits_zero
theorem pay2_apply (y : S64x128.Idx) : (k0_pay2 (F := Ideal)) y = 0 := by
  unfold k0_pay2
  rw [shapeCast_self]
  exact ofBits_zero

/-- The three zero offsets, however spelt. -/
theorem hz3 : (![0, 0, 0] : Fin 3 → Nat) = fun _ => 0 := funext fun a => by fin_cases a <;> rfl

/-- Adding the 128 lanes of each row and viewing the 64 sums as a [1, 64, 1] block: entry (0, e, 0) is the sum of
    row e. -/
theorem pay4_apply (v : Vec Ideal S64x128 .f32) (e : Fin 64) :
    k0_pay4 (F := Ideal) v (ix3 (0 : Fin 1) e (0 : Fin 1)) = ∑ l : Fin 128, v (ix2 e l) := by
  unfold k0_pay4
  refine (shapeCast_apply _ _ (ix3 (0 : Fin 1) e (0 : Fin 1)) (ix2 e (0 : Fin 1)) ?_).trans ?_
  · rw [Shape.rowMajor_val_two, Shape.rowMajor_val_three]
    show e.val * 1 + 0 = (0 * 64 + e.val) * 1 + 0
    omega
  refine (shapeCast_apply _ _ (ix2 e (0 : Fin 1)) (ix1 e) ?_).trans ?_
  · rw [Shape.rowMajor_val_one, Shape.rowMajor_val_two]
    show e.val = e.val * 1 + 0
    omega
  refine (Ideal.multiReduction_add_single _ 0x00000000#32 _ (.inl rfl) rfl (ix1 e)).trans ?_
  refine Finset.sum_congr rfl fun l _ => ?_
  refine congrArg v ?_
  funext d; refine Fin.ext ?_
  match d with
  | ⟨0, _⟩ => rfl
  | ⟨1, _⟩ => rfl
theorem pay5_apply (v : Vec Ideal S64x128 .f32) (e : Fin 64) :
    k0_pay5 (F := Ideal) v (ix3 (0 : Fin 1) e (0 : Fin 1)) = ∑ l : Fin 128, v (ix2 e l) := by
  unfold k0_pay5
  refine (shapeCast_apply _ _ (ix3 (0 : Fin 1) e (0 : Fin 1)) (ix2 e (0 : Fin 1)) ?_).trans ?_
  · rw [Shape.rowMajor_val_two, Shape.rowMajor_val_three]
    show e.val * 1 + 0 = (0 * 64 + e.val) * 1 + 0
    omega
  refine (shapeCast_apply _ _ (ix2 e (0 : Fin 1)) (ix1 e) ?_).trans ?_
  · rw [Shape.rowMajor_val_one, Shape.rowMajor_val_two]
    show e.val = e.val * 1 + 0
    omega
  refine (Ideal.multiReduction_add_single _ 0x00000000#32 _ (.inl rfl) rfl (ix1 e)).trans ?_
  refine Finset.sum_congr rfl fun l _ => ?_
  refine congrArg v ?_
  funext d; refine Fin.ext ?_
  match d with
  | ⟨0, _⟩ => rfl
  | ⟨1, _⟩ => rfl

section
variable (c : Dev nD) (i : grid0.Coords) (arg2 : Memref sig .tc .vmem S4096x128 .f32) (harg2 : arg2.IsWhole)
  (arg3 : Memref sig .tc .vmem S4096x128 .i32) (harg3 : arg3.IsWhole) (arg4 : Memref sig .tc .vmem S1x64x1 .f32) (harg4 : arg4.IsWhole)
  (arg5 : Memref sig .tc .vmem S1x64x1 .f32) (harg5 : arg5.IsWhole) (arg6 : Memref sig .tc .vmem S64x128 .f32) (harg6 : arg6.IsWhole)
  (arg7 : Memref sig .tc .vmem S64x128 .f32) (harg7 : arg7.IsWhole)
  (x0 : Vec Ideal S4096x128 .f32) (x1 : Vec Ideal S4096x128 .i32) (xs0 xs1 : Vec Ideal S64x128 .f32)

/-- The count of a whole block (its eight chunks) at expert row and lane. -/
abbrev cnt8 (y : S64x128.Idx) : EReal :=
  ∑ k ∈ range 8, chunkCnt (natI (x1 : S4096x128.Idx → BitVec 32)) k (y 0).val (y 1).val
/-- The gate sum of a whole block. -/
abbrev gs8 (y : S64x128.Idx) : EReal :=
  ∑ k ∈ range 8, chunkGs (natI (x1 : S4096x128.Idx → BitVec 32)) (natG (x0 : S4096x128.Idx → EReal)) k (y 0).val (y 1).val

/-- First point of a core: the accumulators are cleared, then the block is added. -/
theorem caseA6 (hc0 : cond0_0 i) (hc1 : ¬cond0_1 i) :
    sout0_A_0 c i arg2 harg2 arg3 harg3 arg4 harg4 arg5 harg5 arg6 harg6 arg7 harg7 hc0 hc1 x0 x1 = fun y => cnt8 x1 y := by
  unfold sout0_A_0
  refine (View.read_writes_of_cover VS0_0 VS0_0.junk arg6.view arg6.view.junk _
    (scover0_A_0 c i arg2 harg2 arg3 harg3 arg4 harg4 arg5 harg5 arg6 harg6 arg7 harg7 hc0 hc1 x0 x1)).trans ?_
  unfold kernelRun0_A
  dsimp only
  rw [View.writes_append]
  funext y
  refine (loop6 c i arg2 harg2 arg3 harg3 arg4 harg4 arg5 harg5 arg6 harg6 arg7 harg7 (harg2.unread x0) (harg3.unread x1) _ _ k0_t1_loop.trips le_rfl y).trans ?_
  rw [trips_eq, harg3.read_unread]
  sl_unfold_words
  rw [read_fill, pay1_apply, zero_add]
theorem caseA7 (hc0 : cond0_0 i) (hc1 : ¬cond0_1 i) :
    sout0_A_1 c i arg2 harg2 arg3 harg3 arg4 harg4 arg5 harg5 arg6 harg6 arg7 harg7 hc0 hc1 x0 x1 = fun y => gs8 x0 x1 y := by
  unfold sout0_A_1
  refine (View.read_writes_of_cover VS0_1 VS0_1.junk arg7.view arg7.view.junk _
    (scover0_A_1 c i arg2 harg2 arg3 harg3 arg4 harg4 arg5 harg5 arg6 harg6 arg7 harg7 hc0 hc1 x0 x1)).trans ?_
  unfold kernelRun0_A
  dsimp only
  rw [View.writes_append]
  funext y
  refine (loop7 c i arg2 harg2 arg3 harg3 arg4 harg4 arg5 harg5 arg6 harg6 arg7 harg7 (harg2.unread x0) (harg3.unread x1) _ _ k0_t1_loop.trips le_rfl y).trans ?_
  rw [trips_eq, harg3.read_unread, harg2.read_unread]
  sl_unfold_words
  rw [read_fill, pay2_apply, zero_add]

/-- A middle point: the block is added to what the point before left. -/
theorem caseB6 (hc0 : ¬cond0_0 i) (hc1 : ¬cond0_1 i) :
    sout0_B_0 c i arg2 harg2 arg3 harg3 arg4 harg4 arg5 harg5 arg6 harg6 arg7 harg7 hc0 hc1 x0 x1 xs0 xs1 = fun y => xs0 y + cnt8 x1 y := by
  unfold sout0_B_0
  refine (View.read_writes_of_cover VS0_0 VS0_0.junk arg6.view (harg6.unread xs0) _
    (scover0_B_0 c i arg2 harg2 arg3 harg3 arg4 harg4 arg5 harg5 arg6 harg6 arg7 harg7 hc0 hc1 x0 x1 xs0 xs1)).trans ?_
  unfold kernelRun0_B
  dsimp only
  funext y
  refine (loop6 c i arg2 harg2 arg3 harg3 arg4 harg4 arg5 harg5 arg6 harg6 arg7 harg7 (harg2.unread x0) (harg3.unread x1) (harg6.unread xs0) (harg7.unread xs1)
    k0_t1_loop.trips le_rfl y).trans ?_
  rw [trips_eq, harg6.read_unread, harg3.read_unread]
theorem caseB7 (hc0 : ¬cond0_0 i) (hc1 : ¬cond0_1 i) :
    sout0_B_1 c i arg2 harg2 arg3 harg3 arg4 harg4 arg5 harg5 arg6 harg6 arg7 harg7 hc0 hc1 x0 x1 xs0 xs1 = fun y => xs1 y + gs8 x0 x1 y := by
  unfold sout0_B_1
  refine (View.read_writes_of_cover VS0_1 VS0_1.junk arg7.view (harg7.unread xs1) _
    (scover0_B_1 c i arg2 harg2 arg3 harg3 arg4 harg4 arg5 harg5 arg6 harg6 arg7 harg7 hc0 hc1 x0 x1 xs0 xs1)).trans ?_
  unfold kernelRun0_B
  dsimp only
  funext y
  refine (loop7 c i arg2 harg2 arg3 harg3 arg4 harg4 arg5 harg5 arg6 harg6 arg7 harg7 (harg2.unread x0) (harg3.unread x1) (harg6.unread xs0) (harg7.unread xs1)
    k0_t1_loop.trips le_rfl y).trans ?_
  rw [trips_eq, harg7.read_unread, harg3.read_unread, harg2.read_unread]

/-- The last point of a core: the same accumulation … -/
theorem caseC6 (hc0 : ¬cond0_0 i) (hc1 : cond0_1 i) :
    sout0_C_0 c i arg2 harg2 arg3 harg3 arg4 harg4 arg5 harg5 arg6 harg6 arg7 harg7 hc0 hc1 x0 x1 xs0 xs1 = fun y => xs0 y + cnt8 x1 y := by
  unfold sout0_C_0
  refine (View.read_writes_of_cover VS0_0 VS0_0.junk arg6.view (harg6.unread xs0) _
    (scover0_C_0 c i arg2 harg2 arg3 harg3 arg4 harg4 arg5 harg5 arg6 harg6 arg7 harg7 hc0 hc1 x0 x1 xs0 xs1)).trans ?_
  unfold kernelRun0_C
  dsimp only
  funext y
  refine (loop6 c i arg2 harg2 arg3 harg3 arg4 harg4 arg5 harg5 arg6 harg6 arg7 harg7 (harg2.unread x0) (harg3.unread x1) (harg6.unread xs0) (harg7.unread xs1)
    k0_t1_loop.trips le_rfl y).trans ?_
  rw [trips_eq, harg6.read_unread, harg3.read_unread]
theorem caseC7 (hc0 : ¬cond0_0 i) (hc1 : cond0_1 i) :
    sout0_C_1 c i arg2 harg2 arg3 harg3 arg4 harg4 arg5 harg5 arg6 harg6 arg7 harg7 hc0 hc1 x0 x1 xs0 xs1 = fun y => xs1 y + gs8 x0 x1 y := by
  unfold sout0_C_1
  refine (View.read_writes_of_cover VS0_1 VS0_1.junk arg7.view (harg7.unread xs1) _
    (scover0_C_1 c i arg2 harg2 arg3 harg3 arg4 harg4 arg5 harg5 arg6 harg6 arg7 harg7 hc0 hc1 x0 x1 xs0 xs1)).trans ?_
  unfold kernelRun0_C
  dsimp only
  funext y
  refine (loop7 c i arg2 harg2 arg3 harg3 arg4 harg4 arg5 harg5 arg6 harg6 arg7 harg7 (harg2.unread x0) (harg3.unread x1) (harg6.unread xs0) (harg7.unread xs1)
    k0_t1_loop.trips le_rfl y).trans ?_
  rw [trips_eq, harg7.read_unread, harg3.read_unread, harg2.read_unread]

/-- … and the two output blocks: per expert, the lanes of the accumulator's row added. -/
theorem caseC_out2 (hc0 : ¬cond0_0 i) (hc1 : cond0_1 i) (e : Fin 64) :
    out0_C_2 c i arg2 harg2 arg3 harg3 arg4 harg4 arg5 harg5 arg6 harg6 arg7 harg7 hc0 hc1 x0 x1 xs0 xs1 (ix3 (0 : Fin 1) e (0 : Fin 1))
      = ∑ l : Fin 128, (xs0 (ix2 e l) + cnt8 x1 (ix2 e l)) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  rw [View.canon_unit_zero (S := S1x64x1) hz3]
  refine (pay4_apply _ e).trans ?_
  refine Finset.sum_congr rfl fun l _ => ?_
  sl_unfold_words
  rw [View.readAt_eq_ld, View.ld_unit_zero (S := S64x128) hz2]
  refine (loop6 c i arg2 harg2 arg3 harg3 arg4 harg4 arg5 harg5 arg6 harg6 arg7 harg7 (harg2.unread x0) (harg3.unread x1) (harg6.unread xs0) (harg7.unread xs1)
    k0_t1_loop.trips le_rfl (ix2 e l)).trans ?_
  rw [trips_eq, harg6.read_unread, harg3.read_unread]
theorem caseC_out3 (hc0 : ¬cond0_0 i) (hc1 : cond0_1 i) (e : Fin 64) :
    out0_C_3 c i arg2 harg2 arg3 harg3 arg4 harg4 arg5 harg5 arg6 harg6 arg7 harg7 hc0 hc1 x0 x1 xs0 xs1 (ix3 (0 : Fin 1) e (0 : Fin 1))
      = ∑ l : Fin 128, (xs1 (ix2 e l) + gs8 x0 x1 (ix2 e l)) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  rw [View.canon_unit_zero (S := S1x64x1) hz3]
  refine (pay5_apply _ e).trans ?_
  refine Finset.sum_congr rfl fun l _ => ?_
  sl_unfold_words
  rw [View.readAt_eq_ld, View.ld_unit_zero (S := S64x128) hz2]
  refine (loop7 c i arg2 harg2 arg3 harg3 arg4 harg4 arg5 harg5 arg6 harg6 arg7 harg7 (harg2.unread x0) (harg3.unread x1) (harg6.unread xs0) (harg7.unread xs1)
    k0_t1_loop.trips le_rfl (ix2 e l)).trans ?_
  rw [trips_eq, harg7.read_unread, harg3.read_unread, harg2.read_unread]

end

end Cert.KernelIdeal.Cases

end
-- ==== Proof.Arrays.lean ====
/-
  The arrays the region finds. The two [131072, 128] arrays the kernel streams are the argument arrays reshaped twice
  (to a flat vector, then to rows of 128 lanes): entry (a, b) is the argument's entry at flat position 128·a + b. The
  block of a window at grid point t is rows 4096·t … 4096·t + 4095 of its array.
-/
import proofs.«401345_j59141699666465_3_alg».proof.Defs
import proofs.«401345_j59141699666465_3_alg».proof.Proof.Gen.KernelIdeal.Frame
import proofs.«401345_j59141699666465_3_alg».proof.Proof.Algebra
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Arrays

open Cert.KernelIdeal Cert.KernelIdeal.Gen Cert.LBL Finset

variable (m : (ℓ : Loc nD τ sig) → Buf (Elt Ideal) ℓ)

/-- The flat position n of a [64, 32768, 8] array, as its index. -/
def flatIdx (n : ℕ) (h : n < 16777216) : S64x32768x8.Idx :=
  ix3 ⟨n / 262144, by omega⟩ ⟨n / 8 % 32768, by omega⟩ ⟨n % 8, by omega⟩

/-- Two reshapes read at an index: [64, 32768, 8] to the flat vector to [131072, 128] keeps the flat position, and
    entry (a, b) of the last sits at flat position 128·a + b. -/
theorem reshape2_apply {α : Type} (x : S64x32768x8.Idx → α) (a : Fin 131072) (b : Fin 128) :
    shapeCast S131072x128 (shapeCast S16777216 x shapeCasts_S64x32768x8_S16777216) shapeCasts_S16777216_S131072x128 (ix2 a b)
      = x (flatIdx (a.val * 128 + b.val) (by omega)) := by
  have ha := a.isLt
  have hb := b.isLt
  refine (shapeCast_apply _ shapeCasts_S16777216_S131072x128 (ix2 a b) (ix1 ⟨a.val * 128 + b.val, by omega⟩) ?_).trans ?_
  · rw [Shape.rowMajor_val_one, Shape.rowMajor_val_two]
    rfl
  · refine shapeCast_apply x shapeCasts_S64x32768x8_S16777216 _ (flatIdx (a.val * 128 + b.val) (by omega)) ?_
    rw [Shape.rowMajor_val_three, Shape.rowMajor_val_one]
    show (((a.val * 128 + b.val) / 262144 * 32768 + (a.val * 128 + b.val) / 8 % 32768) * 8 + (a.val * 128 + b.val) % 8)
      = a.val * 128 + b.val
    omega

/-- The gates' array as the region finds it is the first argument reshaped twice. -/
theorem V2_eq (c : Dev nD) :
    (V m c main_v2 : S131072x128.Idx → EReal)
      = shapeCast _ (shapeCast _ (m ((c : Thread nD τ).loc main_arg0)) shapeCasts_S64x32768x8_S16777216) shapeCasts_S16777216_S131072x128 := by
  dsimp only [Gen.V, Gen.V0]
  simp only [Gen.hostOps0, List.flatten_cons, List.flatten_nil, List.append_nil]
  after_results
  rfl

/-- The index words' array as the region finds it is the second argument reshaped twice. -/
theorem V3_eq (c : Dev nD) :
    (V m c main_v3 : S131072x128.Idx → BitVec 32)
      = shapeCast _ (shapeCast _ (m ((c : Thread nD τ).loc main_arg1)) shapeCasts_S64x32768x8_S16777216) shapeCasts_S16777216_S131072x128 := by
  dsimp only [Gen.V, Gen.V0]
  simp only [Gen.hostOps0, List.flatten_cons, List.flatten_nil, List.append_nil]
  after_results
  rfl

/-- The gates as the region finds them: the argument at the same flat position. -/
theorem V2_apply (c : Dev nD) (a : Fin 131072) (b : Fin 128) :
    V m c main_v2 (ix2 a b) = m ((c : Thread nD τ).loc main_arg0) (flatIdx (a.val * 128 + b.val) (by omega)) := by
  rw [V2_eq]
  exact reshape2_apply _ a b

/-- The index words as the region finds them: the argument at the same flat position. -/
theorem V3_apply (c : Dev nD) (a : Fin 131072) (b : Fin 128) :
    V m c main_v3 (ix2 a b) = m ((c : Thread nD τ).loc main_arg1) (flatIdx (a.val * 128 + b.val) (by omega)) := by
  rw [V3_eq]
  exact reshape2_apply _ a b

/-- The index maps of the two input windows, decided over the grid: block t of either array is block row t, block
    column 0. -/
theorem index0 : ∀ t : Fin grid0.N, win0_0.index t (0 : Fin 2) = t.val ∧ win0_0.index t (1 : Fin 2) = 0 := by decide +kernel
theorem index1 : ∀ t : Fin grid0.N, win0_1.index t (0 : Fin 2) = t.val ∧ win0_1.index t (1 : Fin 2) = 0 := by decide +kernel

/-- Window 0's block at point t: rows 4096 t … of the gates. -/
theorem iblk0_apply (c : Dev nD) (t : Fin cfg0.N) (n : Fin 4096) (l : Fin 128) :
    (iblk m c 0 t : Vec Ideal S4096x128 .f32) (ix2 n l)
      = V m c main_v2 (ix2 ⟨t.val * 4096 + n.val, by have := t.isLt; have : cfg0.N = 32 := N_0; omega⟩ l) := by
  unfold iblk
  rw [View.read_apply]
  show V m c main_v2 _ = V m c main_v2 _
  congr 1
  funext a
  apply Fin.ext
  match a with
  | ⟨0, _⟩ => show win0_0.index t 0 * 4096 + 1 * n.val = t.val * 4096 + n.val; rw [(index0 t).1]; omega
  | ⟨1, _⟩ => show win0_0.index t 1 * 128 + 1 * l.val = l.val; rw [(index0 t).2]; omega

/-- Window 1's block at point t: rows 4096 t … of the index words. -/
theorem iblk1_apply (c : Dev nD) (t : Fin cfg0.N) (n : Fin 4096) (l : Fin 128) :
    (iblk m c 1 t : Vec Ideal S4096x128 .i32) (ix2 n l)
      = V m c main_v3 (ix2 ⟨t.val * 4096 + n.val, by have := t.isLt; have : cfg0.N = 32 := N_0; omega⟩ l) := by
  unfold iblk
  rw [View.read_apply]
  show V m c main_v3 _ = V m c main_v3 _
  congr 1
  funext a
  apply Fin.ext
  match a with
  | ⟨0, _⟩ => show win0_1.index t 0 * 4096 + 1 * n.val = t.val * 4096 + n.val; rw [(index1 t).1]; omega
  | ⟨1, _⟩ => show win0_1.index t 1 * 128 + 1 * l.val = l.val; rw [(index1 t).2]; omega

end Cert.KernelIdeal.Arrays

end
-- ==== Proof.Points.lean ====
/-
  The grid points in order. Point t works on block t of the two streamed arrays (rows 4096 t … 4096 t + 4095); a core's
  sixteen points accumulate its sixteen blocks, so after point t the accumulators hold the sums over the blocks from
  the core's first up to t, and the core's last point writes the lane sums of that into the output blocks.
-/
import proofs.«401345_j59141699666465_3_alg».proof.Defs
import proofs.«401345_j59141699666465_3_alg».proof.Proof.Gen.KernelIdeal.Frame
import proofs.«401345_j59141699666465_3_alg».proof.Proof.Algebra
import proofs.«401345_j59141699666465_3_alg».proof.Proof.Trip
import proofs.«401345_j59141699666465_3_alg».proof.Proof.Loop
import proofs.«401345_j59141699666465_3_alg».proof.Proof.Cases
import proofs.«401345_j59141699666465_3_alg».proof.Proof.Arrays
import proofs.«401345_j59141699666465_3_alg».proof.Proof.Streams
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Points

open Cert.KernelIdeal Cert.KernelIdeal.Gen Cert.LBL Cert.KernelIdeal.KRun Finset

variable (m : (ℓ : Loc nD τ sig) → Buf (Elt Ideal) ℓ)

/-- The block of the index words at point t, row n and lane l, is row 4096 t + n of the streamed array. -/
theorem blk_word (c : Dev nD) (t : Fin cfg0.N) (n l : ℕ) (hn : n < 4096) (hl : l < 128) :
    natI ((iblk m c 1 t : Vec Ideal S4096x128 .i32) : S4096x128.Idx → BitVec 32) n l = II m c (t.val * 4096 + n) l := by
  have hN : cfg0.N = 32 := N_0
  have ht := t.isLt
  refine (natI_apply ((iblk m c 1 t : Vec Ideal S4096x128 .i32) : S4096x128.Idx → BitVec 32)
    (⟨n, hn⟩ : Fin 4096) (⟨l, hl⟩ : Fin 128)).trans ?_
  rw [Arrays.iblk1_apply]
  unfold II
  exact (natI_apply (V m c main_v3 : S131072x128.Idx → BitVec 32) (⟨t.val * 4096 + n, by omega⟩ : Fin 131072)
    (⟨l, hl⟩ : Fin 128)).symm

/-- The block of the gates at point t, likewise. -/
theorem blk_gate (c : Dev nD) (t : Fin cfg0.N) (n l : ℕ) (hn : n < 4096) (hl : l < 128) :
    natG ((iblk m c 0 t : Vec Ideal S4096x128 .f32) : S4096x128.Idx → EReal) n l = GG m c (t.val * 4096 + n) l := by
  have hN : cfg0.N = 32 := N_0
  have ht := t.isLt
  refine (natG_apply ((iblk m c 0 t : Vec Ideal S4096x128 .f32) : S4096x128.Idx → EReal)
    (⟨n, hn⟩ : Fin 4096) (⟨l, hl⟩ : Fin 128)).trans ?_
  rw [Arrays.iblk0_apply]
  unfold GG
  exact (natG_apply (V m c main_v2 : S131072x128.Idx → EReal) (⟨t.val * 4096 + n, by omega⟩ : Fin 131072)
    (⟨l, hl⟩ : Fin 128)).symm

/-- The eight chunks of the block at point t are block t of the streamed index words. -/
theorem cnt8_eq (c : Dev nD) (t : Fin cfg0.N) (y : S64x128.Idx) :
    Cases.cnt8 (iblk m c 1 t : Vec Ideal S4096x128 .i32) y = blkCnt (II m c) t.val (y 0).val (y 1).val := by
  unfold blkCnt
  refine Finset.sum_congr rfl fun k hk => ?_
  unfold chunkCnt
  refine Finset.sum_congr rfl fun r hr => ?_
  have hk' := Finset.mem_range.mp hk
  have hr' := Finset.mem_range.mp hr
  rw [blk_word m c t (512 * k + r) (y 1).val (by omega) (idx2_lt1 y)]
  rfl

/-- The same for the gate sums. -/
theorem gs8_eq (c : Dev nD) (t : Fin cfg0.N) (y : S64x128.Idx) :
    Cases.gs8 (iblk m c 0 t : Vec Ideal S4096x128 .f32) (iblk m c 1 t : Vec Ideal S4096x128 .i32) y
      = blkGs (II m c) (GG m c) t.val (y 0).val (y 1).val := by
  unfold blkGs
  refine Finset.sum_congr rfl fun k hk => ?_
  unfold chunkGs
  refine Finset.sum_congr rfl fun r hr => ?_
  have hk' := Finset.mem_range.mp hk
  have hr' := Finset.mem_range.mp hr
  rw [blk_word m c t (512 * k + r) (y 1).val (by omega) (idx2_lt1 y),
    blk_gate m c t (512 * k + r) (y 1).val (by omega) (idx2_lt1 y)]
  rfl

/-- The count accumulator after point t. -/
theorem acc6 (c : Dev nD) (t : ℕ) (ht : t < cfg0.N) (y : S64x128.Idx) :
    (outsAt0 m c t ht).2.2.1 y = accCnt (II m c) t (y 0).val (y 1).val := by
  induction t using Nat.strong_induction_on generalizing y with
  | _ t ih =>
    have hN : cfg0.N = 32 := N_0
    by_cases h0 : t % 16 = 0
    · -- the first point of a core: the block alone
      have h1 : ¬t % 16 = 15 := by omega
      rw [outsAt0_A m c (⟨t, ht⟩ : Fin cfg0.N) h0 h1]
      dsimp only
      refine (congrFun (Cases.caseA6 c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) scM0_0 (Memref.isWhole_whole _) scM0_1 (Memref.isWhole_whole _) (iblk m c 0 (⟨t, ht⟩ : Fin cfg0.N)) (iblk m c 1 (⟨t, ht⟩ : Fin cfg0.N))
        ((hcond0_0 (⟨t, ht⟩ : Fin cfg0.N)).mpr h0) (fun h => h1 ((hcond0_1 (⟨t, ht⟩ : Fin cfg0.N)).mp h))) y).trans ?_
      rw [accCnt_first (II m c) t (y 0).val (y 1).val h0]
      exact cnt8_eq m c (⟨t, ht⟩ : Fin cfg0.N) y
    · have hp : t - 1 < t := by omega
      by_cases h1 : t % 16 = 15
      · -- the last point of a core
        rw [outsAt0_C m c (⟨t, ht⟩ : Fin cfg0.N) h0 h1]
        dsimp only
        refine (congrFun (Cases.caseC6 c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) scM0_0 (Memref.isWhole_whole _) scM0_1 (Memref.isWhole_whole _) (iblk m c 0 (⟨t, ht⟩ : Fin cfg0.N)) (iblk m c 1 (⟨t, ht⟩ : Fin cfg0.N))
          (outsAt0 m c ((⟨t, ht⟩ : Fin cfg0.N).val - 1) (Nat.lt_of_le_of_lt (Nat.sub_le _ _) (⟨t, ht⟩ : Fin cfg0.N).isLt)).2.2.1 (outsAt0 m c ((⟨t, ht⟩ : Fin cfg0.N).val - 1) (Nat.lt_of_le_of_lt (Nat.sub_le _ _) (⟨t, ht⟩ : Fin cfg0.N).isLt)).2.2.2
          (fun h => h0 ((hcond0_0 (⟨t, ht⟩ : Fin cfg0.N)).mp h)) ((hcond0_1 (⟨t, ht⟩ : Fin cfg0.N)).mpr h1)) y).trans ?_
        rw [accCnt_next (II m c) t (y 0).val (y 1).val h0]
        show (outsAt0 m c ((⟨t, ht⟩ : Fin cfg0.N).val - 1) (Nat.lt_of_le_of_lt (Nat.sub_le _ _) (⟨t, ht⟩ : Fin cfg0.N).isLt)).2.2.1 y + Cases.cnt8 (iblk m c 1 (⟨t, ht⟩ : Fin cfg0.N) : Vec Ideal S4096x128 .i32) y = _
        rw [cnt8_eq m c (⟨t, ht⟩ : Fin cfg0.N) y]
        exact congrArg (· + blkCnt (II m c) t (y 0).val (y 1).val) (ih (t - 1) hp _ y)
      · -- a middle point
        rw [outsAt0_B m c (⟨t, ht⟩ : Fin cfg0.N) h0 h1]
        dsimp only
        refine (congrFun (Cases.caseB6 c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) scM0_0 (Memref.isWhole_whole _) scM0_1 (Memref.isWhole_whole _) (iblk m c 0 (⟨t, ht⟩ : Fin cfg0.N)) (iblk m c 1 (⟨t, ht⟩ : Fin cfg0.N))
          (outsAt0 m c ((⟨t, ht⟩ : Fin cfg0.N).val - 1) (Nat.lt_of_le_of_lt (Nat.sub_le _ _) (⟨t, ht⟩ : Fin cfg0.N).isLt)).2.2.1 (outsAt0 m c ((⟨t, ht⟩ : Fin cfg0.N).val - 1) (Nat.lt_of_le_of_lt (Nat.sub_le _ _) (⟨t, ht⟩ : Fin cfg0.N).isLt)).2.2.2
          (fun h => h0 ((hcond0_0 (⟨t, ht⟩ : Fin cfg0.N)).mp h)) (fun h => h1 ((hcond0_1 (⟨t, ht⟩ : Fin cfg0.N)).mp h))) y).trans ?_
        rw [accCnt_next (II m c) t (y 0).val (y 1).val h0]
        show (outsAt0 m c ((⟨t, ht⟩ : Fin cfg0.N).val - 1) (Nat.lt_of_le_of_lt (Nat.sub_le _ _) (⟨t, ht⟩ : Fin cfg0.N).isLt)).2.2.1 y + Cases.cnt8 (iblk m c 1 (⟨t, ht⟩ : Fin cfg0.N) : Vec Ideal S4096x128 .i32) y = _
        rw [cnt8_eq m c (⟨t, ht⟩ : Fin cfg0.N) y]
        exact congrArg (· + blkCnt (II m c) t (y 0).val (y 1).val) (ih (t - 1) hp _ y)

/-- The gate accumulator after point t. -/
theorem acc7 (c : Dev nD) (t : ℕ) (ht : t < cfg0.N) (y : S64x128.Idx) :
    (outsAt0 m c t ht).2.2.2 y = accGs (II m c) (GG m c) t (y 0).val (y 1).val := by
  induction t using Nat.strong_induction_on generalizing y with
  | _ t ih =>
    have hN : cfg0.N = 32 := N_0
    by_cases h0 : t % 16 = 0
    · -- the first point of a core: the block alone
      have h1 : ¬t % 16 = 15 := by omega
      rw [outsAt0_A m c (⟨t, ht⟩ : Fin cfg0.N) h0 h1]
      dsimp only
      refine (congrFun (Cases.caseA7 c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) scM0_0 (Memref.isWhole_whole _) scM0_1 (Memref.isWhole_whole _) (iblk m c 0 (⟨t, ht⟩ : Fin cfg0.N)) (iblk m c 1 (⟨t, ht⟩ : Fin cfg0.N))
        ((hcond0_0 (⟨t, ht⟩ : Fin cfg0.N)).mpr h0) (fun h => h1 ((hcond0_1 (⟨t, ht⟩ : Fin cfg0.N)).mp h))) y).trans ?_
      rw [accGs_first (II m c) (GG m c) t (y 0).val (y 1).val h0]
      exact gs8_eq m c (⟨t, ht⟩ : Fin cfg0.N) y
    · have hp : t - 1 < t := by omega
      by_cases h1 : t % 16 = 15
      · -- the last point of a core
        rw [outsAt0_C m c (⟨t, ht⟩ : Fin cfg0.N) h0 h1]
        dsimp only
        refine (congrFun (Cases.caseC7 c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) scM0_0 (Memref.isWhole_whole _) scM0_1 (Memref.isWhole_whole _) (iblk m c 0 (⟨t, ht⟩ : Fin cfg0.N)) (iblk m c 1 (⟨t, ht⟩ : Fin cfg0.N))
          (outsAt0 m c ((⟨t, ht⟩ : Fin cfg0.N).val - 1) (Nat.lt_of_le_of_lt (Nat.sub_le _ _) (⟨t, ht⟩ : Fin cfg0.N).isLt)).2.2.1 (outsAt0 m c ((⟨t, ht⟩ : Fin cfg0.N).val - 1) (Nat.lt_of_le_of_lt (Nat.sub_le _ _) (⟨t, ht⟩ : Fin cfg0.N).isLt)).2.2.2
          (fun h => h0 ((hcond0_0 (⟨t, ht⟩ : Fin cfg0.N)).mp h)) ((hcond0_1 (⟨t, ht⟩ : Fin cfg0.N)).mpr h1)) y).trans ?_
        rw [accGs_next (II m c) (GG m c) t (y 0).val (y 1).val h0]
        show (outsAt0 m c ((⟨t, ht⟩ : Fin cfg0.N).val - 1) (Nat.lt_of_le_of_lt (Nat.sub_le _ _) (⟨t, ht⟩ : Fin cfg0.N).isLt)).2.2.2 y + Cases.gs8 (iblk m c 0 (⟨t, ht⟩ : Fin cfg0.N) : Vec Ideal S4096x128 .f32) (iblk m c 1 (⟨t, ht⟩ : Fin cfg0.N) : Vec Ideal S4096x128 .i32) y = _
        rw [gs8_eq m c (⟨t, ht⟩ : Fin cfg0.N) y]
        exact congrArg (· + blkGs (II m c) (GG m c) t (y 0).val (y 1).val) (ih (t - 1) hp _ y)
      · -- a middle point
        rw [outsAt0_B m c (⟨t, ht⟩ : Fin cfg0.N) h0 h1]
        dsimp only
        refine (congrFun (Cases.caseB7 c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) scM0_0 (Memref.isWhole_whole _) scM0_1 (Memref.isWhole_whole _) (iblk m c 0 (⟨t, ht⟩ : Fin cfg0.N)) (iblk m c 1 (⟨t, ht⟩ : Fin cfg0.N))
          (outsAt0 m c ((⟨t, ht⟩ : Fin cfg0.N).val - 1) (Nat.lt_of_le_of_lt (Nat.sub_le _ _) (⟨t, ht⟩ : Fin cfg0.N).isLt)).2.2.1 (outsAt0 m c ((⟨t, ht⟩ : Fin cfg0.N).val - 1) (Nat.lt_of_le_of_lt (Nat.sub_le _ _) (⟨t, ht⟩ : Fin cfg0.N).isLt)).2.2.2
          (fun h => h0 ((hcond0_0 (⟨t, ht⟩ : Fin cfg0.N)).mp h)) (fun h => h1 ((hcond0_1 (⟨t, ht⟩ : Fin cfg0.N)).mp h))) y).trans ?_
        rw [accGs_next (II m c) (GG m c) t (y 0).val (y 1).val h0]
        show (outsAt0 m c ((⟨t, ht⟩ : Fin cfg0.N).val - 1) (Nat.lt_of_le_of_lt (Nat.sub_le _ _) (⟨t, ht⟩ : Fin cfg0.N).isLt)).2.2.2 y + Cases.gs8 (iblk m c 0 (⟨t, ht⟩ : Fin cfg0.N) : Vec Ideal S4096x128 .f32) (iblk m c 1 (⟨t, ht⟩ : Fin cfg0.N) : Vec Ideal S4096x128 .i32) y = _
        rw [gs8_eq m c (⟨t, ht⟩ : Fin cfg0.N) y]
        exact congrArg (· + blkGs (II m c) (GG m c) t (y 0).val (y 1).val) (ih (t - 1) hp _ y)

/-- What a core's last point leaves in the first output's staging buffer. -/
theorem out2 (c : Dev nD) (t : Fin cfg0.N) (h15 : t.val % 16 = 15) (e : Fin 64) :
    (outsAt0 m c t.val t.isLt).1 (ix3 (0 : Fin 1) e (0 : Fin 1)) = ∑ l ∈ range 128, accCnt (II m c) t.val e.val l := by
  have hN : cfg0.N = 32 := N_0
  have h0 : ¬t.val % 16 = 0 := by omega
  rw [outsAt0_C m c t h0 h15]
  dsimp only
  refine (Cases.caseC_out2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2
    (fun h => h0 ((hcond0_0 t).mp h)) ((hcond0_1 t).mpr h15) e).trans ?_
  rw [← Fin.sum_univ_eq_sum_range (fun l => accCnt (II m c) t.val e.val l) 128]
  refine Finset.sum_congr rfl fun l _ => ?_
  rw [accCnt_next (II m c) t.val e.val l.val h0, acc6 m c (t.val - 1) _ (ix2 e l), cnt8_eq m c t (ix2 e l)]

/-- What a core's last point leaves in the second output's staging buffer. -/
theorem out3 (c : Dev nD) (t : Fin cfg0.N) (h15 : t.val % 16 = 15) (e : Fin 64) :
    (outsAt0 m c t.val t.isLt).2.1 (ix3 (0 : Fin 1) e (0 : Fin 1)) = ∑ l ∈ range 128, accGs (II m c) (GG m c) t.val e.val l := by
  have hN : cfg0.N = 32 := N_0
  have h0 : ¬t.val % 16 = 0 := by omega
  rw [outsAt0_C m c t h0 h15]
  dsimp only
  refine (Cases.caseC_out3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2
    (fun h => h0 ((hcond0_0 t).mp h)) ((hcond0_1 t).mpr h15) e).trans ?_
  rw [← Fin.sum_univ_eq_sum_range (fun l => accGs (II m c) (GG m c) t.val e.val l) 128]
  refine Finset.sum_congr rfl fun l _ => ?_
  rw [accGs_next (II m c) (GG m c) t.val e.val l.val h0, acc7 m c (t.val - 1) _ (ix2 e l), gs8_eq m c t (ix2 e l)]

end Cert.KernelIdeal.Points

end
-- ==== Proof.Flush.lean ====
/-
  What the two output arrays hold after the region. Each core writes its block (one row of 64 experts) back exactly
  once, after its sixteenth grid point; the two blocks tile the [2, 64, 1] array, so row cc of the array is what
  point 16·cc + 15 left in the output's staging buffer.
-/
import proofs.«401345_j59141699666465_3_alg».proof.Defs
import proofs.«401345_j59141699666465_3_alg».proof.Proof.Gen.KernelIdeal.Frame
import proofs.«401345_j59141699666465_3_alg».proof.Proof.Algebra
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Flush

open Cert.KernelIdeal Cert.KernelIdeal.Gen Cert.LBL Finset

variable (m : (ℓ : Loc nD τ sig) → Buf (Elt Ideal) ℓ)

/-- The whole [2, 64, 1] array the two write-backs assemble: row cc holds what point 16·cc + 15 left. -/
def assembled (OUT : ℕ → ℕ → EReal) : S2x64x1.Idx → EReal := fun j => OUT (16 * (j 0).val + 15) (j 1).val

/-- Output window 2's index map and transfer sizes, decided over the grid: point t's block is block row t / 16 (one
    row of 64 experts), whole. -/
theorem index2 : ∀ t : Fin grid0.N,
    win0_2.index t (0 : Fin 3) = t.val / 16 ∧ win0_2.index t (1 : Fin 3) = 0 ∧ win0_2.index t (2 : Fin 3) = 0 := by decide +kernel
theorem xsize2 : ∀ t : Fin grid0.N,
    win0_2.xsize (grid0.coords t) (0 : Fin 3) = 1 ∧ win0_2.xsize (grid0.coords t) (1 : Fin 3) = 64
      ∧ win0_2.xsize (grid0.coords t) (2 : Fin 3) = 1 := by decide +kernel

/-- What a last point of a core writes back into output 2 is its block of the assembled array: entry (0, e, 0) of
    the block at point t is entry (t / 16, e, 0) of the array, and 16·(t / 16) + 15 = t there. -/
theorem flushed2_eq (c : Dev nD) (OUT : ℕ → ℕ → EReal)
    (hfl : ∀ t : Fin cfg0.N, t.val % 16 = 15 → ∀ e : Fin 64,
      (outsAt0 m c t.val t.isLt).1 (ix3 (0 : Fin 1) e (0 : Fin 1)) = OUT t.val e.val)
    (t : Fin cfg0.N) (hf : (cfg0.win 2).flush t = true) :
    (dats m 0 c).flushed 2 t = ((cfg0.win 2).blk t).view.read (Elt Ideal) (assembled OUT) := by
  have ht : t.val % 16 = 15 := (flush0_2 t).mp hf
  show (cfg0.win 2).cut (grid0.coords t) ((dats m 0 c).after 2 t) = _
  rw [after0_2]
  refine funext fun (j : S1x64x1.Idx) => ?_
  obtain ⟨a, b, d, rfl⟩ : ∃ a b d, j = ix3 a b d := ⟨j 0, j 1, j 2, eq_ix3 j⟩
  rw [View.read_apply]
  have ha : a.val = 0 := by omega
  refine Eq.trans ?_ ((hfl t ht b).trans ?_)
  · refine congrArg (outsAt0 m c t.val t.isLt).1 (funext fun x => Fin.ext ?_)
    match x with
    | ⟨0, _⟩ => show a.val = 0; omega
    | ⟨1, _⟩ => rfl
    | ⟨2, _⟩ => show d.val = 0; omega
  · show OUT t.val b.val = OUT (16 * (win0_2.index t 0 * 1 + 1 * a.val) + 15) (win0_2.index t 1 * 64 + 1 * b.val)
    rw [(index2 t).1, (index2 t).2.1, ha]
    congr 1 <;> omega

/-- Output window 2 (the counts): if at every last point of a core the staging buffer's entry for expert `e` is
    `OUT t e`, the array's row `cc` is `OUT (16·cc + 15)`. -/
theorem final2 (c : Dev nD) (OUT : ℕ → ℕ → EReal)
    (hfl : ∀ t : Fin cfg0.N, t.val % 16 = 15 → ∀ e : Fin 64,
      (outsAt0 m c t.val t.isLt).1 (ix3 (0 : Fin 1) e (0 : Fin 1)) = OUT t.val e.val) :
    ∀ (cc : Fin 2) (e : Fin 64), (dats m 0 c).arrAt 2 cfg0.N (ix3 cc e (0 : Fin 1)) = OUT (16 * cc.val + 15) e.val := by
  intro cc e
  have hN : cfg0.N = 32 := N_0
  have hcc := cc.isLt
  have he := e.isLt
  -- row cc of the array lies in the block of point 16·cc + 15, a last point of core cc
  let t : Fin cfg0.N := ⟨16 * cc.val + 15, by omega⟩
  have htv : t.val = 16 * cc.val + 15 := rfl
  have hf : (cfg0.win 2).flush t = true := (flush0_2 t).mpr (by omega)
  refine ((dats m 0 c).arrAt_apply_of_mem 2 (assembled OUT) (flushed2_eq m c OUT hfl) cfg0.N t (ix3 cc e (0 : Fin 1)) t.isLt hf ?_).trans rfl
  show ix3 cc e (0 : Fin 1) ∈ ((View.whole main_v4_0).slice (win0_2.rect t)).set
  rw [View.set_slice_whole, Rect.mem_set_unit]
  intro a
  match a with
  | ⟨0, _⟩ =>
    show win0_2.index t 0 * 1 ≤ cc.val ∧ cc.val < win0_2.index t 0 * 1 + win0_2.xsize (grid0.coords t) 0
    rw [(index2 t).1, (xsize2 t).1]; omega
  | ⟨1, _⟩ =>
    show win0_2.index t 1 * 64 ≤ e.val ∧ e.val < win0_2.index t 1 * 64 + win0_2.xsize (grid0.coords t) 1
    rw [(index2 t).2.1, (xsize2 t).2.1]; omega
  | ⟨2, _⟩ =>
    show win0_2.index t 2 * 1 ≤ 0 ∧ 0 < win0_2.index t 2 * 1 + win0_2.xsize (grid0.coords t) 2
    rw [(index2 t).2.2, (xsize2 t).2.2]; omega

/-- Output window 3's index map and transfer sizes, decided over the grid: point t's block is block row t / 16 (one
    row of 64 experts), whole. -/
theorem index3 : ∀ t : Fin grid0.N,
    win0_3.index t (0 : Fin 3) = t.val / 16 ∧ win0_3.index t (1 : Fin 3) = 0 ∧ win0_3.index t (2 : Fin 3) = 0 := by decide +kernel
theorem xsize3 : ∀ t : Fin grid0.N,
    win0_3.xsize (grid0.coords t) (0 : Fin 3) = 1 ∧ win0_3.xsize (grid0.coords t) (1 : Fin 3) = 64
      ∧ win0_3.xsize (grid0.coords t) (2 : Fin 3) = 1 := by decide +kernel

/-- What a last point of a core writes back into output 3 is its block of the assembled array: entry (0, e, 0) of
    the block at point t is entry (t / 16, e, 0) of the array, and 16·(t / 16) + 15 = t there. -/
theorem flushed3_eq (c : Dev nD) (OUT : ℕ → ℕ → EReal)
    (hfl : ∀ t : Fin cfg0.N, t.val % 16 = 15 → ∀ e : Fin 64,
      (outsAt0 m c t.val t.isLt).2.1 (ix3 (0 : Fin 1) e (0 : Fin 1)) = OUT t.val e.val)
    (t : Fin cfg0.N) (hf : (cfg0.win 3).flush t = true) :
    (dats m 0 c).flushed 3 t = ((cfg0.win 3).blk t).view.read (Elt Ideal) (assembled OUT) := by
  have ht : t.val % 16 = 15 := (flush0_3 t).mp hf
  show (cfg0.win 3).cut (grid0.coords t) ((dats m 0 c).after 3 t) = _
  rw [after0_3]
  refine funext fun (j : S1x64x1.Idx) => ?_
  obtain ⟨a, b, d, rfl⟩ : ∃ a b d, j = ix3 a b d := ⟨j 0, j 1, j 2, eq_ix3 j⟩
  rw [View.read_apply]
  have ha : a.val = 0 := by omega
  refine Eq.trans ?_ ((hfl t ht b).trans ?_)
  · refine congrArg (outsAt0 m c t.val t.isLt).2.1 (funext fun x => Fin.ext ?_)
    match x with
    | ⟨0, _⟩ => show a.val = 0; omega
    | ⟨1, _⟩ => rfl
    | ⟨2, _⟩ => show d.val = 0; omega
  · show OUT t.val b.val = OUT (16 * (win0_3.index t 0 * 1 + 1 * a.val) + 15) (win0_3.index t 1 * 64 + 1 * b.val)
    rw [(index3 t).1, (index3 t).2.1, ha]
    congr 1 <;> omega

/-- Output window 3 (the gate sums): the same. -/
theorem final3 (c : Dev nD) (OUT : ℕ → ℕ → EReal)
    (hfl : ∀ t : Fin cfg0.N, t.val % 16 = 15 → ∀ e : Fin 64,
      (outsAt0 m c t.val t.isLt).2.1 (ix3 (0 : Fin 1) e (0 : Fin 1)) = OUT t.val e.val) :
    ∀ (cc : Fin 2) (e : Fin 64), (dats m 0 c).arrAt 3 cfg0.N (ix3 cc e (0 : Fin 1)) = OUT (16 * cc.val + 15) e.val := by
  intro cc e
  have hN : cfg0.N = 32 := N_0
  have hcc := cc.isLt
  have he := e.isLt
  -- row cc of the array lies in the block of point 16·cc + 15, a last point of core cc
  let t : Fin cfg0.N := ⟨16 * cc.val + 15, by omega⟩
  have htv : t.val = 16 * cc.val + 15 := rfl
  have hf : (cfg0.win 3).flush t = true := (flush0_3 t).mpr (by omega)
  refine ((dats m 0 c).arrAt_apply_of_mem 3 (assembled OUT) (flushed3_eq m c OUT hfl) cfg0.N t (ix3 cc e (0 : Fin 1)) t.isLt hf ?_).trans rfl
  show ix3 cc e (0 : Fin 1) ∈ ((View.whole main_v4_1).slice (win0_3.rect t)).set
  rw [View.set_slice_whole, Rect.mem_set_unit]
  intro a
  match a with
  | ⟨0, _⟩ =>
    show win0_3.index t 0 * 1 ≤ cc.val ∧ cc.val < win0_3.index t 0 * 1 + win0_3.xsize (grid0.coords t) 0
    rw [(index3 t).1, (xsize3 t).1]; omega
  | ⟨1, _⟩ =>
    show win0_3.index t 1 * 64 ≤ e.val ∧ e.val < win0_3.index t 1 * 64 + win0_3.xsize (grid0.coords t) 1
    rw [(index3 t).2.1, (xsize3 t).2.1]; omega
  | ⟨2, _⟩ =>
    show win0_3.index t 2 * 1 ≤ 0 ∧ 0 < win0_3.index t 2 * 1 + win0_3.xsize (grid0.coords t) 2
    rw [(index3 t).2.2, (xsize3 t).2.2]; omega

end Cert.KernelIdeal.Flush

end
-- ==== Proof.Tail.lean ====
/-
  The host lines after the pallas_call: each of the two [2, 64, 1] results is reshaped to [2, 64] and summed over the
  two cores; both sums are scaled by 2^-24 and multiplied, the products are summed over the 64 experts and the sum is
  multiplied by 64.
-/
import proofs.«401345_j59141699666465_3_alg».proof.Defs
import proofs.«401345_j59141699666465_3_alg».proof.Proof.Gen.KernelIdeal.Frame
import proofs.«401345_j59141699666465_3_alg».proof.Proof.Algebra
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Tail

open Cert.KernelIdeal Cert.KernelIdeal.Gen Cert.LBL Finset

variable (m : (ℓ : Loc nD τ sig) → Buf (Elt Ideal) ℓ)

/-- The zero constant at its one index. -/
theorem const_zero (i : S_.Idx) : constant (F := Ideal) S_ .f32 0x00000000#32 i = (0 : EReal) := ofBits_zero

/-- A [2, 64, 1] array reshaped to [2, 64] and summed over its first axis from zero: at expert j, the sum of the two
    cores' entries for j. -/
theorem colsum_apply (A : Vec Ideal S2x64x1 .f32) (j : S64.Idx) :
    Host.reduceAdd (F := Ideal) (shapeCast S2x64 A shapeCasts_S2x64x1_S2x64) (constant (F := Ideal) S_ .f32 0x00000000#32)
        reducesTo_S2x64_S64_d0 h_S_ j
      = ∑ cc ∈ range 2, natG3 A cc (j 0).val := by
  have hR : S2x64.Reduces [0] S64 := by decide
  simp only [Host.reduceAdd, Ideal.hostReduceAdd_def]
  refine (Ideal.hostReduceAdd_single reducesTo_S2x64_S64_d0 hR _ _ j).trans ?_
  rw [const_zero, zero_add]
  refine Eq.trans ?_ (Fin.sum_univ_eq_sum_range (fun cc => natG3 A cc (j 0).val) 2)
  refine Finset.sum_congr rfl fun k _ => ?_
  refine Eq.trans ?_ (natG3_apply A k (j 0)).symm
  refine shapeCast_apply A shapeCasts_S2x64x1_S2x64 (hR.lift j k) (ix3 k (j 0) (0 : Fin 1)) ?_
  rw [Shape.rowMajor_val_three, Shape.rowMajor_val_two]
  show (k.val * 64 + (j 0).val) * 1 + 0 = k.val * 64 + (j 0).val
  omega

/-- The broadcast of the constant 2^-24 at any expert. -/
theorem bcast_inv_apply (j : S64.Idx) :
    broadcastInDim S64 ![] bcast_S_S64 (constant (F := Ideal) S_ .f32 0x33800000#32) j = ((1 / 16777216 : ℝ) : EReal) :=
  (broadcastInDim_apply _ bcast_S_S64 (constant (F := Ideal) S_ .f32 0x33800000#32) j (fun a => a.elim0)
    (fun a => a.elim0)).trans ofBits_inv_total

/-- The indices of a 64-vector are its coordinates. -/
def idx64 : S64.Idx ≃ Fin 64 where
  toFun j := j 0
  invFun e := ix1 e
  left_inv j := (eq_ix1 j).symm
  right_inv e := rfl

/-- A 64-vector summed over its one axis from zero: the sum of its entries. -/
theorem total_apply (x : Vec Ideal S64 .f32) (g : ℕ → EReal) (hx : ∀ e : Fin 64, x (ix1 e) = g e.val) (i : S_.Idx) :
    Host.reduceAdd (F := Ideal) x (constant (F := Ideal) S_ .f32 0x00000000#32) reducesTo_S64_S_d0 h_S_ i
      = ∑ e ∈ range 64, g e := by
  simp only [Host.reduceAdd, Ideal.hostReduceAdd_def]
  refine (Ideal.hostReduceAdd_total reducesTo_S64_S_d0 (fun b => b.elim0) x _ i).trans ?_
  rw [const_zero, zero_add]
  refine Eq.trans ?_ (Fin.sum_univ_eq_sum_range g 64)
  refine Fintype.sum_equiv idx64 _ _ fun j => ?_
  exact (congrArg x (eq_ix1 j)).trans (hx (j 0))

/-- One expert's term of the loss: its two scaled sums multiplied. -/
def term (A2 A3 : Vec Ideal S2x64x1 .f32) (n : ℕ) : EReal :=
  ((∑ cc ∈ range 2, natG3 A2 cc n) * ((1 / 16777216 : ℝ) : EReal))
    * ((∑ cc ∈ range 2, natG3 A3 cc n) * ((1 / 16777216 : ℝ) : EReal))

/-- The host lines over any two result arrays. -/
theorem tail_arith (A2 A3 : Vec Ideal S2x64x1 .f32) :
    (mulf (constant (F := Ideal) S_ .f32 0x42800000#32)
      (Host.reduceAdd (F := Ideal)
        (mulf
          (mulf (Host.reduceAdd (F := Ideal) (shapeCast S2x64 A2 shapeCasts_S2x64x1_S2x64) (constant (F := Ideal) S_ .f32 0x00000000#32) reducesTo_S2x64_S64_d0 h_S_)
                (broadcastInDim S64 ![] bcast_S_S64 (constant (F := Ideal) S_ .f32 0x33800000#32)))
          (mulf (Host.reduceAdd (F := Ideal) (shapeCast S2x64 A3 shapeCasts_S2x64x1_S2x64) (constant (F := Ideal) S_ .f32 0x00000000#32) reducesTo_S2x64_S64_d0 h_S_)
                (broadcastInDim S64 ![] bcast_S_S64 (constant (F := Ideal) S_ .f32 0x33800000#32))))
        (constant (F := Ideal) S_ .f32 0x00000000#32) reducesTo_S64_S_d0 h_S_)
      : Vec Ideal S_ .f32)
    = fun _ => loss (fun e => ∑ cc ∈ range 2, natG3 A2 cc e) (fun e => ∑ cc ∈ range 2, natG3 A3 cc e) := by
  funext i
  have hx : ∀ e : Fin 64,
      mulf
          (mulf (Host.reduceAdd (F := Ideal) (shapeCast S2x64 A2 shapeCasts_S2x64x1_S2x64) (constant (F := Ideal) S_ .f32 0x00000000#32) reducesTo_S2x64_S64_d0 h_S_)
                (broadcastInDim S64 ![] bcast_S_S64 (constant (F := Ideal) S_ .f32 0x33800000#32)))
          (mulf (Host.reduceAdd (F := Ideal) (shapeCast S2x64 A3 shapeCasts_S2x64x1_S2x64) (constant (F := Ideal) S_ .f32 0x00000000#32) reducesTo_S2x64_S64_d0 h_S_)
                (broadcastInDim S64 ![] bcast_S_S64 (constant (F := Ideal) S_ .f32 0x33800000#32))) (ix1 e)
        = term A2 A3 e.val := by
    intro e
    show FloatOps.mulf (F := Ideal) (FloatOps.mulf (F := Ideal) _ _) (FloatOps.mulf (F := Ideal) _ _) = _
    simp only [Ideal.mulf_def]
    rw [colsum_apply, colsum_apply, bcast_inv_apply]
    rfl
  show FloatOps.mulf (F := Ideal) (FloatOps.ofBits .f32 0x42800000#32) _ = _
  rw [total_apply _ (term A2 A3) hx i]
  simp only [Ideal.mulf_def, Ideal.ofBits_def]
  rw [ofBits_64]
  rfl

/-- The program's result, from what the two output arrays hold after the region: the loss of the per-expert sums of
    the two cores' rows. -/
theorem tail_eq (c : Dev nD) :
    Pipeline.afterTail₀ cfgs (dats m) 0 (V0 m) [hostOps1] c main_v15
      = fun _ => loss (fun e => ∑ cc ∈ range 2, natG3 ((dats m 0 c).arrAt 2 cfg0.N) cc e)
          (fun e => ∑ cc ∈ range 2, natG3 ((dats m 0 c).arrAt 3 cfg0.N) cc e) := by
  unfold Pipeline.afterTail₀
  show StableHlo.after hostOps1 _ (Proc.devRef .tc main_v15) = _
  after_results
  have h2 : Pipeline.withArrays (cfgs 0).spec c (V0 m c) (fun w => (dats m 0 c).arrAt w (cfgs 0).N)
      (Proc.devRef .tc main_v4_0) = (dats m 0 c).arrAt 2 cfg0.N :=
    Pipeline.withArrays_arr spec0 launch0.win.arr_inj c _ _ 2
  have h3 : Pipeline.withArrays (cfgs 0).spec c (V0 m c) (fun w => (dats m 0 c).arrAt w (cfgs 0).N)
      (Proc.devRef .tc main_v4_1) = (dats m 0 c).arrAt 3 cfg0.N :=
    Pipeline.withArrays_arr spec0 launch0.win.arr_inj c _ _ 3
  rw [h2, h3]
  generalize (dats m 0 c).arrAt 2 cfg0.N = A2
  generalize (dats m 0 c).arrAt 3 cfg0.N = A3
  exact tail_arith A2 A3

end Cert.KernelIdeal.Tail

end
-- ==== Proof.KRun.lean ====
/-
  The kernel program's run, read: its result is the loss of the flat count and flat gate sum of the two [131072, 128]
  arrays the region streams.
-/
import proofs.«401345_j59141699666465_3_alg».proof.Defs
import proofs.«401345_j59141699666465_3_alg».proof.Proof.Gen.KernelIdeal.Frame
import proofs.«401345_j59141699666465_3_alg».proof.Proof.Algebra
import proofs.«401345_j59141699666465_3_alg».proof.Proof.Streams
import proofs.«401345_j59141699666465_3_alg».proof.Proof.Points
import proofs.«401345_j59141699666465_3_alg».proof.Proof.Flush
import proofs.«401345_j59141699666465_3_alg».proof.Proof.Tail
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.KRun

open Cert.KernelIdeal Cert.KernelIdeal.Gen Cert.LBL Finset

variable (m : (ℓ : Loc nD τ sig) → Buf (Elt Ideal) ℓ) (ρ : Dev nD → PrngReg)

/-- The loss depends on the two per-expert sums only at the 64 experts. -/
theorem loss_congr {f f' g g' : ℕ → EReal} (hf : ∀ e < 64, f e = f' e) (hg : ∀ e < 64, g e = g' e) :
    loss f g = loss f' g' := by
  unfold loss
  refine congrArg _ (Finset.sum_congr rfl fun e he => ?_)
  rw [hf e (Finset.mem_range.mp he), hg e (Finset.mem_range.mp he)]

/-- The rows of the first output array are the cores' counts. -/
theorem arr2_eq (c : Dev nD) (cc e : ℕ) (hcc : cc < 2) (he : e < 64) :
    natG3 ((dats m 0 c).arrAt 2 cfg0.N) cc e = coreCnt (II m c) cc e := by
  have h := natG3_apply ((dats m 0 c).arrAt 2 cfg0.N) (⟨cc, hcc⟩ : Fin 2) (⟨e, he⟩ : Fin 64)
  refine h.trans ?_
  exact Cert.KernelIdeal.Flush.final2 m c (fun t e => ∑ l ∈ range 128, accCnt (II m c) t e l)
    (fun t h15 e => Cert.KernelIdeal.Points.out2 m c t h15 e) ⟨cc, hcc⟩ ⟨e, he⟩

/-- The rows of the second output array are the cores' gate sums. -/
theorem arr3_eq (c : Dev nD) (cc e : ℕ) (hcc : cc < 2) (he : e < 64) :
    natG3 ((dats m 0 c).arrAt 3 cfg0.N) cc e = coreGs (II m c) (GG m c) cc e := by
  have h := natG3_apply ((dats m 0 c).arrAt 3 cfg0.N) (⟨cc, hcc⟩ : Fin 2) (⟨e, he⟩ : Fin 64)
  refine h.trans ?_
  exact Cert.KernelIdeal.Flush.final3 m c (fun t e => ∑ l ∈ range 128, accGs (II m c) (GG m c) t e l)
    (fun t h15 e => Cert.KernelIdeal.Points.out3 m c t h15 e) ⟨cc, hcc⟩ ⟨e, he⟩

/-- The program's result buffer after the host lines that follow the region. -/
theorem result_eq (c : Dev nD) :
    Pipeline.afterTail₀ cfgs (dats m) 0 (V0 m) [hostOps1] c main_v15
      = fun _ => loss (flatCnt (II m c)) (flatGs (II m c) (GG m c)) := by
  refine (Cert.KernelIdeal.Tail.tail_eq m c).trans ?_
  funext _
  refine loss_congr (fun e he => ?_) (fun e he => ?_)
  · rw [← cores_cnt]
    exact Finset.sum_congr rfl fun cc hcc => arr2_eq m c cc e (Finset.mem_range.mp hcc) he
  · rw [← cores_gs]
    exact Finset.sum_congr rfl fun cc hcc => arr3_eq m c cc e (Finset.mem_range.mp hcc) he

/-- Every weakly fair execution of the kernel program ends with the result at the loss of the flat sums, the
    arguments unchanged. -/
theorem run : θ_run defs (onTc (τ := τ) (main (F := Ideal))) ⟨m, fun _ => 0, ρ⟩ fun r => ∀ c : Dev nD,
      r.2.mem ((c.tc : Thread nD τ).loc main_v15) = (fun _ => loss (flatCnt (II m c)) (flatGs (II m c) (GG m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v15 (Pipeline.mem_restRefs_of main_v15 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KRun

end
-- ==== Proof.LibScatterConst.lean ====
/-
  A scatter whose body keeps the update (a "set") and whose updates all carry one constant, read at an index; and when an
  update index lands on a given operand index.

  The scatter is a left fold over the update indices; each step overwrites the element its update lands on, when it
  lands inside the operand. With a constant update the order of the steps and repeated landings do not matter: the result at
  an index is the constant when some update lands there, and the operand's element otherwise.
-/
import Idealize.ShloMosaic.PureOps.ShapeOps

namespace Cert.LibScatterConst

open Idealize.ShloMosaic

/-- A left fold whose step, where `g n = some i`, sets the element at `i` to the constant `c` and keeps every other element,
    and where `g n = none` keeps the function: read at `i'`, it is `c` when some member of the list lands on `i'`, else
    the starting function's element. By induction over the list, for every starting function. -/
theorem foldl_set_const_apply {ι κ α : Type} (g : κ → Option ι) (c : α) (step : (ι → α) → κ → ι → α)
    (hsome : ∀ r n i, g n = some i → step r n i = c ∧ ∀ i', i' ≠ i → step r n i' = r i')
    (hnone : ∀ r n, g n = none → step r n = r) (i' : ι) :
    ∀ (L : List κ) (r : ι → α),
      ((∃ n ∈ L, g n = some i') → L.foldl step r i' = c) ∧ ((¬ ∃ n ∈ L, g n = some i') → L.foldl step r i' = r i') := by
  intro L
  induction L with
  | nil =>
    intro r
    exact ⟨fun ⟨n, hn, _⟩ => absurd hn List.not_mem_nil, fun _ => rfl⟩
  | cons a L ih =>
    intro r
    rw [List.foldl_cons]
    obtain ⟨ih1, ih2⟩ := ih (step r a)
    constructor
    · rintro ⟨n, hn, h⟩
      by_cases hL : ∃ n ∈ L, g n = some i'
      · exact ih1 hL
      · rw [ih2 hL]
        rcases List.mem_cons.1 hn with rfl | hn
        · exact (hsome r n i' h).1
        · exact absurd ⟨n, hn, h⟩ hL
    · intro hno
      have hL : ¬ ∃ n ∈ L, g n = some i' := fun ⟨n, hn, h⟩ => hno ⟨n, List.mem_cons_of_mem _ hn, h⟩
      rw [ih2 hL]
      cases hg : g a with
      | none => rw [hnone r a hg]
      | some i =>
        have hi : i' ≠ i := fun e => hno ⟨a, List.mem_cons_self, by rw [hg, e]⟩
        exact (hsome r a i hg).2 i' hi

/-- A scatter that sets (its body returns the update) with every update equal to `c`, read at `i'`: `c` when some update index
    lands on `i'`, else the operand's element there. -/
theorem scatter_set_const_apply {s si u : Shape} {α : Type} {w : Nat} (d : ScatterDims s si u) (x : s.Idx → α)
    (idx : IVec si w) (upd : u.Idx → α) (c : α) (hupd : ∀ j, upd j = c) (i' : s.Idx)
    [Decidable (∃ j : u.Idx, d.resultIdx? j idx = some i')] :
    Host.scatter d (fun _ v => v) x idx upd i' = if ∃ j : u.Idx, d.resultIdx? j idx = some i' then c else x i' := by
  obtain rfl : upd = fun _ => c := funext hupd
  unfold Host.scatter
  have key := foldl_set_const_apply (fun n => d.resultIdx? (u.rowMajor.symm n) idx) c
    (fun r n => match d.resultIdx? (u.rowMajor.symm n) idx with
      | some i => fun i' => if i' = i then (fun _ v => v) (r i) ((fun _ => c) (u.rowMajor.symm n)) else r i'
      | none => r)
    (fun r n i h => by
      refine ⟨?_, fun i' hi => ?_⟩
      · simp only [h]; exact if_pos trivial
      · simp only [h]; exact if_neg hi)
    (fun r n h => by simp only [h]) i' (List.finRange u.numel) x
  have hiff : (∃ n ∈ List.finRange u.numel, d.resultIdx? (u.rowMajor.symm n) idx = some i') ↔
      ∃ j : u.Idx, d.resultIdx? j idx = some i' := by
    constructor
    · rintro ⟨n, _, h⟩; exact ⟨_, h⟩
    · rintro ⟨j, h⟩
      exact ⟨u.rowMajor j, List.mem_finRange _, by rw [Equiv.symm_apply_apply]; exact h⟩
  by_cases h : ∃ j : u.Idx, d.resultIdx? j idx = some i'
  · rw [if_pos h]; exact key.1 (hiff.2 h)
  · rw [if_neg h]; exact key.2 (fun h' => h (hiff.1 h'))

/-- An update index lands on the operand index `i'` exactly when, on every axis, its start plus its window coordinate is
    `i'`'s coordinate. -/
theorem resultIdx?_eq_some_iff {s si u : Shape} {w : Nat} (d : ScatterDims s si u) (j : u.Idx) (idx : IVec si w)
    (i' : s.Idx) :
    d.resultIdx? j idx = some i' ↔ ∀ a, d.start j idx a + (d.window j a : Int) = ((i' a).val : Int) := by
  unfold ScatterDims.resultIdx?
  split
  · rename_i h
    constructor
    · intro e a
      have e1 : ((d.start j idx a + (d.window j a : Int)).toNat) = (i' a).val :=
        congrArg Fin.val (congrFun (Option.some.inj e) a)
      have ha := h a
      omega
    · intro e
      refine congrArg some (funext fun a => Fin.ext ?_)
      have ea := e a
      have ha := h a
      show (d.start j idx a + (d.window j a : Int)).toNat = (i' a).val
      omega
  · rename_i h
    constructor
    · intro e; exact absurd e (by simp)
    · intro e
      refine absurd (fun a => ?_) h
      have ea := e a
      have hlt := (i' a).isLt
      omega

end Cert.LibScatterConst
-- ==== Proof.LibScatterAdd.lean ====
/-
  An accumulating scatter read at an index, at the extended reals.

  The accumulating scatter of updates into an operand holds, at each operand index, the operand's element plus the
  sum of the updates that land there. An update lands, on every operand axis, at its start (the start index's component
  for that axis, read as a signed integer and not clamped; zero on an axis the start index does not address) plus its
  window coordinate (the update's coordinate on the window axis that goes to that operand axis; zero on an inserted
  axis); an update that lands outside the operand on some axis is dropped.

  Two shapes of it:
    * FLAT: a vector operand [N], a column of start indices [R, 1], one scalar update per start index [R]. The one operand
      axis is addressed by the start index and inserted, so update n lands on p exactly when idx[n, 0], read signed, is p:
      element p is the operand's plus the updates n whose start index is p.
    * ROWS: a matrix operand [S, T], a column of start indices [R, 1] naming ROWS, one row update [R, T] per start index.
      Operand axis 0 is addressed by the start index and inserted, operand axis 1 carries the update's window axis 1 from
      start zero, so update (n, t') lands on (o, t) exactly when idx[n, 0], read signed, is o and t' = t. The sum over
      the update indices that land on (o, t), split by coordinates, keeps in each row n at most the one term t' = t:
      element (o, t) is the operand's plus the updates (n, t) of the rows n whose start index is o.
-/
import Idealize.ShloMosaic.PureOps.Ideal
import Idealize.ShloMosaic.Lib.ValueIdx
import proofs.«401345_j59141699666465_3_alg».proof.Proof.LibScatterConst

noncomputable section

namespace Cert.LibScatterAdd

open Idealize.ShloMosaic Idealize.ShloMosaic.ValueIdx

/-- FLAT, one update: update `n` lands on `p` exactly when its start index, read signed, is `p`. The operand's one axis is
    the one the start index addresses, so the start there is the index word at `[n, 0]`; that axis is inserted, so the
    window coordinate is zero. -/
theorem flat_lands_iff {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1) (idx : IVec ⟨2, ![R, 1]⟩ 32) (n : (⟨1, ![R]⟩ : Shape).Idx) (p : Fin N) :
    d.resultIdx? n idx = some (ix1 p) ↔ (idx (ix2 (n 0) (0 : Fin 1))).toInt = (p.val : ℤ) := by
  rw [Cert.LibScatterConst.resultIdx?_eq_some_iff]
  obtain ⟨uw, iw, sd, iv, wf⟩ := d
  dsimp only at huw hiw hsd hiv
  subst huw hiw hsd hiv
  -- the start on the operand's axis: the index word at [n, 0]
  have hstart : ScatterDims.start (s := ⟨1, ![N]⟩) (si := ⟨2, ![R, 1]⟩) (u := ⟨1, ![R]⟩) ⟨[], [0], [0], 1, wf⟩ n idx 0
      = (idx (ix2 (n 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- the operand's axis is inserted: no window coordinate
  have hwin : ScatterDims.window (s := ⟨1, ![N]⟩) (si := ⟨2, ![R, 1]⟩) (u := ⟨1, ![R]⟩) ⟨[], [0], [0], 1, wf⟩ n 0 = 0 := by
    unfold ScatterDims.window
    exact dif_neg (show (0 : Fin 1) ∉ (List.finRange 1).filter (· ∉ ([0] : List (Fin 1))) by decide)
  constructor
  · intro h
    have h0 := h 0
    rw [hstart, hwin, Nat.cast_zero, add_zero] at h0
    exact h0
  · intro h a
    obtain rfl : a = 0 := Subsingleton.elim _ _
    rw [hstart, hwin, Nat.cast_zero, add_zero]
    exact h

/-- FLAT: element `p` is the operand's plus the sum of the updates whose start index, read signed, is `p`. -/
theorem scatterAdd_flat_apply {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![R, 1]⟩ 32) (upd : (⟨1, ![R]⟩ : Shape).Idx → EReal) (p : Fin N) :
    Ideal.hostScatterAdd d x idx upd (ix1 p)
      = x (ix1 p) + ∑ n ∈ Finset.univ.filter
          (fun n : (⟨1, ![R]⟩ : Shape).Idx => (idx (ix2 (n 0) (0 : Fin 1))).toInt = (p.val : ℤ)), upd n := by
  -- the two sums run over the same set of update indices
  unfold Ideal.hostScatterAdd
  congr 1
  refine Finset.sum_congr (Finset.filter_congr fun n _ => ?_) fun _ _ => rfl
  exact flat_lands_iff d huw hiw hsd hiv idx n p

/-- ROWS, one update: update `j = (n, t')` lands on `(o, t)` exactly when the start index of row `n`, read signed, is `o`
    and `t' = t`. On operand axis 0 the start is the index word at `[n, 0]` and the axis is inserted (window coordinate
    zero); operand axis 1 is not addressed by the start index (start zero) and carries the update's axis 1. -/
theorem rows_lands_iff {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1) (idx : IVec ⟨2, ![R, 1]⟩ 32) (j : (⟨2, ![R, T]⟩ : Shape).Idx) (o : Fin S) (t : Fin T) :
    d.resultIdx? j idx = some (ix2 o t) ↔ (idx (ix2 (j 0) (0 : Fin 1))).toInt = (o.val : ℤ) ∧ j 1 = t := by
  rw [Cert.LibScatterConst.resultIdx?_eq_some_iff]
  obtain ⟨uw, iw, sd, iv, wf⟩ := d
  dsimp only at huw hiw hsd hiv
  subst huw hiw hsd hiv
  -- operand axis 0: the start is the index word at [n, 0] …
  have hstart0 : ScatterDims.start (s := ⟨2, ![S, T]⟩) (si := ⟨2, ![R, 1]⟩) (u := ⟨2, ![R, T]⟩) ⟨[1], [0], [0], 1, wf⟩ j idx 0
      = (idx (ix2 (j 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- … operand axis 1 is not addressed by the start index
  have hstart1 : ScatterDims.start (s := ⟨2, ![S, T]⟩) (si := ⟨2, ![R, 1]⟩) (u := ⟨2, ![R, T]⟩) ⟨[1], [0], [0], 1, wf⟩ j idx 1
      = 0 := by
    unfold ScatterDims.start
    exact dif_neg (show (1 : Fin 2) ∉ ([0] : List (Fin 2)) by decide)
  -- operand axis 0 is inserted: no window coordinate …
  have hwin0 : ScatterDims.window (s := ⟨2, ![S, T]⟩) (si := ⟨2, ![R, 1]⟩) (u := ⟨2, ![R, T]⟩) ⟨[1], [0], [0], 1, wf⟩ j 0 = 0 := by
    unfold ScatterDims.window
    exact dif_neg (show (0 : Fin 2) ∉ (List.finRange 2).filter (· ∉ ([0] : List (Fin 2))) by decide)
  -- … operand axis 1 is the one kept axis: its window coordinate is the update's coordinate on its window axis 1
  have hwin1 : ScatterDims.window (s := ⟨2, ![S, T]⟩) (si := ⟨2, ![R, 1]⟩) (u := ⟨2, ![R, T]⟩) ⟨[1], [0], [0], 1, wf⟩ j 1
      = (j 1).val := by
    unfold ScatterDims.window
    exact (dif_pos (show (1 : Fin 2) ∈ (List.finRange 2).filter (· ∉ ([0] : List (Fin 2))) by decide)).trans rfl
  constructor
  · intro h
    have h0 := h 0
    have h1 := h 1
    rw [hstart0, hwin0, Nat.cast_zero, add_zero] at h0
    rw [hstart1, hwin1, zero_add] at h1
    exact ⟨h0, Fin.ext (by exact_mod_cast h1)⟩
  · rintro ⟨h0, h1⟩ a
    match a with
    | ⟨0, _⟩ =>
      show ScatterDims.start _ j idx 0 + (ScatterDims.window _ j 0 : ℤ) = _
      rw [hstart0, hwin0, Nat.cast_zero, add_zero]
      exact h0
    | ⟨1, _⟩ =>
      show ScatterDims.start _ j idx 1 + (ScatterDims.window _ j 1 : ℤ) = _
      rw [hstart1, hwin1, zero_add, h1]

/-- ROWS: element `(o, t)` is the operand's plus the sum over the rows `n` whose start index, read signed, is `o`, of
    update `(n, t)`. -/
theorem scatterAdd_rows_apply {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1)
    (x : (⟨2, ![S, T]⟩ : Shape).Idx → EReal) (idx : IVec ⟨2, ![R, 1]⟩ 32) (upd : (⟨2, ![R, T]⟩ : Shape).Idx → EReal)
    (o : Fin S) (t : Fin T) :
    Ideal.hostScatterAdd d x idx upd (ix2 o t)
      = x (ix2 o t) + ∑ n ∈ Finset.univ.filter
          (fun n : Fin R => (idx (ix2 n (0 : Fin 1))).toInt = (o.val : ℤ)), upd (ix2 n t) := by
  unfold Ideal.hostScatterAdd
  congr 1
  -- both sums as sums of guarded terms; the left one split by the update index's coordinates (n, t')
  rw [Finset.sum_filter, Finset.sum_filter, sum_idx2]
  refine Finset.sum_congr rfl fun n _ => ?_
  by_cases hP : (idx (ix2 n (0 : Fin 1))).toInt = (o.val : ℤ)
  · -- row n starts at o: of its terms only t' = t lands on (o, t)
    rw [if_pos hP, Finset.sum_eq_single t]
    · exact if_pos ((rows_lands_iff d huw hiw hsd hiv idx (ix2 n t) o t).mpr ⟨hP, rfl⟩)
    · intro b _ hb
      exact if_neg (fun h => hb ((rows_lands_iff d huw hiw hsd hiv idx (ix2 n b) o t).mp h).2)
    · intro h; exact absurd (Finset.mem_univ t) h
  · -- row n starts elsewhere: none of its terms lands on (o, t)
    rw [if_neg hP]
    refine Finset.sum_eq_zero fun b _ => ?_
    exact if_neg (fun h => hP ((rows_lands_iff d huw hiw hsd hiv idx (ix2 n b) o t).mp h).1)

end Cert.LibScatterAdd

end
-- ==== Proof.RefValue.lean ====
/-
  The reference, read at the extended reals: its two accumulating scatters are, per expert, the count of the flat
  positions whose index word is that expert and the sum of the gates there; the rest is a division of each by 2^24,
  their product, the sum over the experts and the factor 64.
-/
import proofs.«401345_j59141699666465_3_alg».proof.Defs
import proofs.«401345_j59141699666465_3_alg».proof.Proof.Gen.ReferenceIdeal.Run
import proofs.«401345_j59141699666465_3_alg».proof.Proof.Gen.ReferenceIdeal.Read
import proofs.«401345_j59141699666465_3_alg».proof.Proof.LibScatterAdd
import proofs.«401345_j59141699666465_3_alg».proof.Proof.Algebra

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.LBL Finset

/-- A sum over a rank-1 index set is the sum over its one coordinate. -/
theorem sum_idx1 {n : ℕ} (f : (⟨1, ![n]⟩ : Shape).Idx → EReal) : ∑ i, f i = ∑ a : Fin n, f (ix1 a) := by
  let E : (⟨1, ![n]⟩ : Shape).Idx ≃ Fin n :=
    { toFun := fun i => i 0, invFun := fun a => ix1 a, left_inv := fun i => (eq_ix1 i).symm, right_inv := fun _ => rfl }
  exact (Equiv.sum_comp E.symm f).symm

/-- The index column of the first scatter, at row n, is the index word at the flat position n. -/
theorem word_v4 (x1 : (⟨S64x32768x8, .i32⟩ : BufTy).Contents (Elt Ideal)) (I : ℕ → ℕ → BitVec 32)
    (hI : ∀ n : Fin 16777216, Cert.ReferenceIdeal.Read.val_main_v0 (F := Ideal) x1 (ix1 n) = I (n.val / 128) (n.val % 128))
    (n : Fin 16777216) :
    Cert.ReferenceIdeal.Read.val_main_v4 (F := Ideal) x1 (ix2 n (0 : Fin 1)) = I (n.val / 128) (n.val % 128) := by
  rw [Cert.ReferenceIdeal.Read.val_main_v4_apply]
  have h : Cert.ReferenceIdeal.Read.idx_main_v4 (ix2 n (0 : Fin 1)) = ix1 n := by
    funext a; match a with | ⟨0, _⟩ => rfl
  rw [h, hI]

/-- The index column of the second scatter, likewise. -/
theorem word_v7 (x1 : (⟨S64x32768x8, .i32⟩ : BufTy).Contents (Elt Ideal)) (I : ℕ → ℕ → BitVec 32)
    (hI : ∀ n : Fin 16777216, Cert.ReferenceIdeal.Read.val_main_v0 (F := Ideal) x1 (ix1 n) = I (n.val / 128) (n.val % 128))
    (n : Fin 16777216) :
    Cert.ReferenceIdeal.Read.val_main_v7 (F := Ideal) x1 (ix2 n (0 : Fin 1)) = I (n.val / 128) (n.val % 128) := by
  rw [Cert.ReferenceIdeal.Read.val_main_v7_apply]
  have h : Cert.ReferenceIdeal.Read.idx_main_v7 (ix2 n (0 : Fin 1)) = ix1 n := by
    funext a; match a with | ⟨0, _⟩ => rfl
  rw [h, hI]

/-- The accumulating scatter into 64 cells, read at cell e: the operand's element plus, over all 2^24 updates, the
    update where its index word, read signed, is e and zero where it is not. -/
theorem scatter_apply (x : (⟨1, ![64]⟩ : Shape).Idx → EReal) (idx : IVec ⟨2, ![16777216, 1]⟩ 32)
    (upd : (⟨1, ![16777216]⟩ : Shape).Idx → EReal) (e : Fin 64) :
    Host.scatterAdd (F := Ideal) (φ := .f32) scatter_S64_S16777216x1_S16777216_n_0_0_1 x idx upd (ix1 e)
      = x (ix1 e) + ∑ n : Fin 16777216, if (idx (ix2 n (0 : Fin 1))).toInt = (e.val : ℤ) then upd (ix1 n) else 0 := by
  unfold Host.scatterAdd
  rw [Ideal.hostScatterAdd_def]
  refine (Cert.LibScatterAdd.scatterAdd_flat_apply scatter_S64_S16777216x1_S16777216_n_0_0_1 rfl rfl rfl rfl x idx upd e).trans ?_
  rw [Finset.sum_filter, sum_idx1]

/-- The first scatter adds a one per position into zeros: cell e is the flat count of e. -/
theorem count_eq (x1 : (⟨S64x32768x8, .i32⟩ : BufTy).Contents (Elt Ideal)) (I : ℕ → ℕ → BitVec 32)
    (hI : ∀ n : Fin 16777216, Cert.ReferenceIdeal.Read.val_main_v0 (F := Ideal) x1 (ix1 n) = I (n.val / 128) (n.val % 128))
    (e : Fin 64) : Cert.ReferenceIdeal.Read.val_main_v5 (F := Ideal) x1 (ix1 e) = flatCnt I e.val := by
  unfold Cert.ReferenceIdeal.Read.val_main_v5
  rw [scatter_apply, Cert.ReferenceIdeal.Read.val_main_v3_apply, Cert.ReferenceIdeal.Read.val_main_cst_0_apply, Ideal.ofBits_def,
    ofBits_zero, zero_add]
  unfold flatCnt
  rw [← Fin.sum_univ_eq_sum_range (fun n => ind (I (n / 128) (n % 128)) e.val) 16777216]
  refine Finset.sum_congr rfl fun n _ => ?_
  rw [word_v4 x1 I hI, Cert.ReferenceIdeal.Read.val_main_v2_apply, Cert.ReferenceIdeal.Read.val_main_cst_apply,
    Ideal.ofBits_def, ofBits_one]
  unfold ind
  rfl

/-- The second scatter adds the gate of each position into zeros: cell e is the flat gate sum of e
    (1 · g = g and 0 · g = 0 on the extended reals). -/
theorem gates_eq (x0 : (⟨S64x32768x8, .f32⟩ : BufTy).Contents (Elt Ideal)) (x1 : (⟨S64x32768x8, .i32⟩ : BufTy).Contents (Elt Ideal))
    (I : ℕ → ℕ → BitVec 32) (G : ℕ → ℕ → EReal)
    (hI : ∀ n : Fin 16777216, Cert.ReferenceIdeal.Read.val_main_v0 (F := Ideal) x1 (ix1 n) = I (n.val / 128) (n.val % 128))
    (hG : ∀ n : Fin 16777216, Cert.ReferenceIdeal.Read.val_main_v1 (F := Ideal) x0 (ix1 n) = G (n.val / 128) (n.val % 128))
    (e : Fin 64) : Cert.ReferenceIdeal.Read.val_main_v8 (F := Ideal) x0 x1 (ix1 e) = flatGs I G e.val := by
  unfold Cert.ReferenceIdeal.Read.val_main_v8
  rw [scatter_apply, Cert.ReferenceIdeal.Read.val_main_v6_apply, Cert.ReferenceIdeal.Read.val_main_cst_1_apply, Ideal.ofBits_def,
    ofBits_zero, zero_add]
  unfold flatGs
  rw [← Fin.sum_univ_eq_sum_range (fun n => ind (I (n / 128) (n % 128)) e.val * G (n / 128) (n % 128)) 16777216]
  refine Finset.sum_congr rfl fun n _ => ?_
  rw [word_v7 x1 I hI, hG]
  unfold ind
  rw [ite_mul, one_mul, zero_mul]

/-- Expert e's term of the reduction: (count / 2^24) · (gate sum / 2^24), each division a product with 2^-24. -/
theorem term_eq (x0 : (⟨S64x32768x8, .f32⟩ : BufTy).Contents (Elt Ideal)) (x1 : (⟨S64x32768x8, .i32⟩ : BufTy).Contents (Elt Ideal))
    (I : ℕ → ℕ → BitVec 32) (G : ℕ → ℕ → EReal)
    (hI : ∀ n : Fin 16777216, Cert.ReferenceIdeal.Read.val_main_v0 (F := Ideal) x1 (ix1 n) = I (n.val / 128) (n.val % 128))
    (hG : ∀ n : Fin 16777216, Cert.ReferenceIdeal.Read.val_main_v1 (F := Ideal) x0 (ix1 n) = G (n.val / 128) (n.val % 128))
    (e : Fin 64) :
    Cert.ReferenceIdeal.Read.val_main_v13 (F := Ideal) x0 x1 (ix1 e)
      = (flatCnt I e.val * ((1 / 16777216 : ℝ) : EReal)) * (flatGs I G e.val * ((1 / 16777216 : ℝ) : EReal)) := by
  rw [Cert.ReferenceIdeal.Read.val_main_v13_apply, Cert.ReferenceIdeal.Read.val_main_v10_apply,
    Cert.ReferenceIdeal.Read.val_main_v12_apply, Cert.ReferenceIdeal.Read.val_main_v9_apply,
    Cert.ReferenceIdeal.Read.val_main_cst_2_apply, Cert.ReferenceIdeal.Read.val_main_v11_apply,
    Cert.ReferenceIdeal.Read.val_main_cst_3_apply, Ideal.mulf_def, Ideal.hostDivf_def, Ideal.hostDivf_def,
    Ideal.ofBits_def, ofBits_total, div_total, div_total, count_eq x1 I hI, gates_eq x0 x1 I G hI hG]

/-- The reference's result is the loss of the flat count and the flat gate sum, for any two-coordinate reading
    `I`, `G` of the flattened index and gate arrays (flat position n at row n / 128, lane n % 128). -/
theorem result_eq (x0 : (⟨S64x32768x8, .f32⟩ : BufTy).Contents (Elt Ideal)) (x1 : (⟨S64x32768x8, .i32⟩ : BufTy).Contents (Elt Ideal))
    (I : ℕ → ℕ → BitVec 32) (G : ℕ → ℕ → EReal)
    (hI : ∀ n : Fin 16777216, Cert.ReferenceIdeal.Read.val_main_v0 (F := Ideal) x1 (ix1 n) = I (n.val / 128) (n.val % 128))
    (hG : ∀ n : Fin 16777216, Cert.ReferenceIdeal.Read.val_main_v1 (F := Ideal) x0 (ix1 n) = G (n.val / 128) (n.val % 128)) :
    Cert.ReferenceIdeal.Read.val_main_v15 (F := Ideal) x0 x1 = fun _ => loss (flatCnt I) (flatGs I G) := by
  -- 64 · (0 + the sum over the 64 cells of the terms), the cells counted by e < 64
  funext i
  rw [Cert.ReferenceIdeal.Read.val_main_v15_apply, Cert.ReferenceIdeal.Read.val_main_cst_5_apply,
    Cert.ReferenceIdeal.Read.val_main_v14_apply, Cert.ReferenceIdeal.Read.val_main_cst_4_apply, Ideal.mulf_def,
    Ideal.ofBits_def, Ideal.ofBits_def, ofBits_64, ofBits_zero, zero_add, sum_idx1,
    Finset.sum_congr rfl (fun e _ => term_eq x0 x1 I G hI hG e)]
  unfold loss
  rw [← Fin.sum_univ_eq_sum_range
    (fun e => (flatCnt I e * ((1 / 16777216 : ℝ) : EReal)) * (flatGs I G e * ((1 / 16777216 : ℝ) : EReal))) 64]

end Cert.ReferenceIdeal.RefValue

end
-- ==== Proof.lean ====
/-
  The certificate's claim. The kernel and the reference both compute the load-balancing loss of a [64, 32768, 8]
  array of index words and the like array of gates: sixty-four times the sum over the experts of (the fraction of
  the 2^24 positions whose word is the expert) · (the sum of the gates at those positions over 2^24).

  The kernel reads the two arrays as 131072 rows of 128 lanes and forms the per-expert sums block by block, lane by
  lane and core by core; the reference scatters over the flat positions. Both are the same finite sums of extended
  reals taken in different orders, and addition of extended reals is commutative and associative, so each program's
  result is `loss (flatCnt I) (flatGs I G)` for the same reading I, G of the arguments: entry (row, lane) of the
  kernel's arrays is the argument's entry at flat position 128 · row + lane, which is the position the reference's
  flattening reads. Neither program writes its arguments.
-/
import proofs.«401345_j59141699666465_3_alg».proof.Defs
import proofs.«401345_j59141699666465_3_alg».proof.Proof.Gen.Kernel.Frame
import proofs.«401345_j59141699666465_3_alg».proof.Proof.Gen.KernelIdeal.Frame
import proofs.«401345_j59141699666465_3_alg».proof.Proof.Gen.ReferenceIdeal
import proofs.«401345_j59141699666465_3_alg».proof.Proof.Gen.Pre_finite_inputs
import proofs.«401345_j59141699666465_3_alg».proof.Proof.Gen.ReferenceIdeal.Run
import proofs.«401345_j59141699666465_3_alg».proof.Proof.Gen.ReferenceIdeal.Read
import proofs.«401345_j59141699666465_3_alg».proof.Proof.KRun
import proofs.«401345_j59141699666465_3_alg».proof.Proof.RefValue
import proofs.«401345_j59141699666465_3_alg».proof.Proof.Arrays

noncomputable section

namespace Cert.Proof

open Idealize.ShloMosaic Idealize.ShloMosaic.TcCoe Idealize.ShloMosaic.ValueIdx Idealize.SL.Sem

/-- The flat position n = 128 · (n / 128) + n % 128 of a [64, 32768, 8] array, named two ways, is one index. -/
theorem idx_v0_eq (n : Fin 16777216) (h : n.val / 128 * 128 + n.val % 128 < 16777216) :
    Cert.ReferenceIdeal.Read.idx_main_v0 (ix1 n) = Cert.KernelIdeal.Arrays.flatIdx (n.val / 128 * 128 + n.val % 128) h := by
  have hn := n.isLt
  funext a
  apply Fin.ext
  match a with
  | ⟨0, _⟩ => show n.val / 262144 = (n.val / 128 * 128 + n.val % 128) / 262144; omega
  | ⟨1, _⟩ => show n.val / 8 % 32768 = (n.val / 128 * 128 + n.val % 128) / 8 % 32768; omega
  | ⟨2, _⟩ => show n.val % 8 = (n.val / 128 * 128 + n.val % 128) % 8; omega

theorem idx_v1_eq (n : Fin 16777216) (h : n.val / 128 * 128 + n.val % 128 < 16777216) :
    Cert.ReferenceIdeal.Read.idx_main_v1 (ix1 n) = Cert.KernelIdeal.Arrays.flatIdx (n.val / 128 * 128 + n.val % 128) h :=
  idx_v0_eq n h

theorem frame_Kernel : Cert.frame_Kernel (hKernel := Cert.Kernel.Gen.facts) (hPre_finite_inputs := Cert.Pre_finite_inputs.Gen.facts) :=
  fun m ρ _ => Cert.Kernel.Gen.frame m ρ

theorem frame_KernelIdeal :
    Cert.frame_KernelIdeal (hKernelIdeal := Cert.KernelIdeal.Gen.facts) (hPre_finite_inputs := Cert.Pre_finite_inputs.Gen.facts) :=
  fun m ρ _ => Cert.KernelIdeal.Gen.frame m ρ

theorem frame_ReferenceIdeal :
    Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

theorem preserves : Cert.preserves_Kernel_KernelIdeal := trivial

/-- Both programs end at the loss of the flat count and the flat gate sum of the one reading of the arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => (fun _ => Cert.LBL.loss (Cert.LBL.flatCnt (Cert.KernelIdeal.KRun.II m c))
      (Cert.LBL.flatGs (Cert.KernelIdeal.KRun.II m c) (Cert.KernelIdeal.KRun.GG m c))),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq (F := Ideal) _ _).trans ?_
  refine Cert.ReferenceIdeal.RefValue.result_eq _ _ (Cert.KernelIdeal.KRun.II m c) (Cert.KernelIdeal.KRun.GG m c) ?_ ?_
  · intro n
    have hn := n.isLt
    have e1 : Cert.KernelIdeal.KRun.II m c (n.val / 128) (n.val % 128)
        = Cert.KernelIdeal.Gen.V m c Cert.KernelIdeal.main_v3 (ix2 ⟨n.val / 128, by omega⟩ ⟨n.val % 128, by omega⟩) :=
      Cert.LBL.natI_apply (A := 131072) (B := 128) _ ⟨n.val / 128, by omega⟩ ⟨n.val % 128, by omega⟩
    rw [Cert.ReferenceIdeal.Read.val_main_v0_apply, (hagree c).2, e1, Cert.KernelIdeal.Arrays.V3_apply]
    exact congrArg _ (idx_v0_eq n _)
  · intro n
    have hn := n.isLt
    have e1 : Cert.KernelIdeal.KRun.GG m c (n.val / 128) (n.val % 128)
        = Cert.KernelIdeal.Gen.V m c Cert.KernelIdeal.main_v2 (ix2 ⟨n.val / 128, by omega⟩ ⟨n.val % 128, by omega⟩) :=
      Cert.LBL.natG_apply (A := 131072) (B := 128) _ ⟨n.val / 128, by omega⟩ ⟨n.val % 128, by omega⟩
    rw [Cert.ReferenceIdeal.Read.val_main_v1_apply, (hagree c).1, e1, Cert.KernelIdeal.Arrays.V2_apply]
    exact congrArg _ (idx_v1_eq n _)

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
